-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x2048 : Shape := ⟨2, ![8, 2048]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x3 .f32) (main_arg1 : FVec F S8x2048 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S8x2048x3 : Shape := ⟨3, ![8, 2048, 3]⟩
abbrev S8x2048 : Shape := ⟨2, ![8, 2048]⟩
abbrev S8x2048x1 : Shape := ⟨3, ![8, 2048, 1]⟩
abbrev S1x8x2048 : Shape := ⟨3, ![1, 8, 2048]⟩
abbrev S3x8x2048 : Shape := ⟨3, ![3, 8, 2048]⟩
abbrev S8x1x128 : Shape := ⟨3, ![8, 1, 128]⟩
abbrev S3x8x256 : Shape := ⟨3, ![3, 8, 256]⟩
abbrev S8x256 : Shape := ⟨2, ![8, 256]⟩
abbrev S1x1x128 : Shape := ⟨3, ![1, 1, 128]⟩
abbrev S1x8x256 : Shape := ⟨3, ![1, 8, 256]⟩
abbrev S8x256x1 : Shape := ⟨3, ![8, 256, 1]⟩
abbrev S8x1x256 : Shape := ⟨3, ![8, 1, 256]⟩
abbrev S8x256x256 : Shape := ⟨3, ![8, 256, 256]⟩
abbrev S8 : Shape := ⟨1, ![8]⟩
abbrev S1x8 : Shape := ⟨2, ![1, 8]⟩
abbrev S1 : Shape := ⟨1, ![1]⟩
abbrev S1x1 : Shape := ⟨2, ![1, 1]⟩
abbrev S8x1x1 : Shape := ⟨3, ![8, 1, 1]⟩
abbrev S_ : Shape := ⟨0, ![]⟩

abbrev nBuf : Space → Nat
  | .hbm => 52
  | .vmem => 14
  | .smem => 0
  | _ => 0

abbrev bufTy : (tb : Table) → Fin (tcTables nBuf tb) → BufTy
  | .hbm, ⟨0, _⟩ => ⟨S8x2048x3, .f32⟩
  | .hbm, ⟨1, _⟩ => ⟨S8x2048, .f32⟩
  | .hbm, ⟨2, _⟩ => ⟨S8x2048x1, .f32⟩
  | .hbm, ⟨3, _⟩ => ⟨S8x2048, .f32⟩
  | .hbm, ⟨4, _⟩ => ⟨S8x2048x1, .f32⟩
  | .hbm, ⟨5, _⟩ => ⟨S8x2048, .f32⟩
  | .hbm, ⟨6, _⟩ => ⟨S8x2048x1, .f32⟩
  | .hbm, ⟨7, _⟩ => ⟨S8x2048, .f32⟩
  | .hbm, ⟨8, _⟩ => ⟨S1x8x2048, .f32⟩
  | .hbm, ⟨9, _⟩ => ⟨S1x8x2048, .f32⟩
  | .hbm, ⟨10, _⟩ => ⟨S1x8x2048, .f32⟩
  | .hbm, ⟨11, _⟩ => ⟨S3x8x2048, .f32⟩
  | .hbm, ⟨12, _⟩ => ⟨S8x1x128, .f32⟩
  | .hbm, ⟨13, _⟩ => ⟨S8x1x128, .f32⟩
  | .hbm, ⟨14, _⟩ => ⟨S8x1x128, .f32⟩
  | .hbm, ⟨15, _⟩ => ⟨S8x1x1, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S8x1x1, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S8x1x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S3x8x256, .f32⟩
  | .local _ .vmem, ⟨1, _⟩ => ⟨S3x8x256, .f32⟩
  | .local _ .vmem, ⟨2, _⟩ => ⟨S3x8x256, .f32⟩
  | .local _ .vmem, ⟨3, _⟩ => ⟨S3x8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v56 : BitVec 1 := Scalar.cmpi .eq arg1 c0_i32
  let v57 : BitVec 32 := Scalar.extui v56
  let c0_i32_24 : BitVec 32 := 0#32
  let v58 : BitVec 1 := Scalar.cmpi .ne v57 c0_i32_24
  v58

def k0_cond2 (i : grid0.Coords) : BitVec 1 :=
  let arg1 : BitVec 32 := BitVec.ofNat 32 (i 1).val
  let c0_i32_25 : BitVec 32 := 0#32
  let v59 : BitVec 1 := Scalar.cmpi .ne arg1 c0_i32_25
  let v60 : BitVec 32 := Scalar.extui v59
  let c0_i32_26 : BitVec 32 := 0#32
  let v61 : BitVec 1 := Scalar.cmpi .ne v60 c0_i32_26
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S8x2048x3_S8x2048x1_0_0_0 : S8x2048x3.Slices ![0, 0, 0] S8x2048x1
  shapeCasts_S8x2048x1_S8x2048 : S8x2048x1.ShapeCasts S8x2048
  slices_S8x2048x3_S8x2048x1_0_0_1 : S8x2048x3.Slices ![0, 0, 1] S8x2048x1
  slices_S8x2048x3_S8x2048x1_0_0_2 : S8x2048x3.Slices ![0, 0, 2] S8x2048x1
  bcast_S8x2048_S1x8x2048_1_2 : S8x2048.BroadcastsInDim S1x8x2048 (![1, 2] : Fin 2 → Fin S1x8x2048.rank)
  concatenates_S1x8x2048_S1x8x2048_S1x8x2048_S3x8x2048_d0 : Shape.Concatenates [S1x8x2048, S1x8x2048, S1x8x2048] S3x8x2048 0
  inb_S3x8x256_S1x8x256_0_0_0 : ∀ a, (![0, 0, 0] : Fin 3 → Nat) a + S1x8x256.size a ≤ S3x8x256.size a
  h_S1x8x256 : 0 < S1x8x256.numel
  shapeCasts_S1x8x256_S8x256 : S1x8x256.ShapeCasts S8x256
  inb_S3x8x256_S1x8x256_1_0_0 : ∀ a, (![1, 0, 0] : Fin 3 → Nat) a + S1x8x256.size a ≤ S3x8x256.size a
  inb_S3x8x256_S1x8x256_2_0_0 : ∀ a, (![2, 0, 0] : Fin 3 → Nat) a + S1x8x256.size a ≤ S3x8x256.size a
  inb_S8x256_S8x256_0_0 : ∀ a, (![0, 0] : Fin 2 → Nat) a + S8x256.size a ≤ S8x256.size a
  h_S8x256 : 0 < S8x256.numel
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  natLt_1_32 : 1 < 32
  reduces_S8x256x256_S8x256 : S8x256x256.Reduces [2] S8x256
  reduces_S8x256_S8 : S8x256.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x256.size a ≤ S3x8x2048.size a
  hwx0_0 : ∀ i : grid0.Coords, EltTy.bits .f32 = 32 ∨ (Rect.block (s := S3x8x2048) S3x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x8x256.size a ≤ S3x8x2048.size a
  hwx0_1 : ∀ i : grid0.Coords, EltTy.bits .f32 = 32 ∨ (Rect.block (s := S3x8x2048) S3x8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x2048.size a
  hwx0_2 : ∀ i : grid0.Coords, EltTy.bits .f32 = 32 ∨ (Rect.block (s := S8x2048) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x2048.size a
  hwx0_3 : ∀ i : grid0.Coords, EltTy.bits .f32 = 32 ∨ (Rect.block (s := S8x2048) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S8x1x128.size a
  hwx0_6 : ∀ i : grid0.Coords, EltTy.bits .f32 = 32 ∨ (Rect.block (s := S8x1x128) S1x1x128.size (cc0_transform_6 i) (hinb0_6 i)).WholeWords (EltTy.packing .f32)

variable [Facts₀]

abbrev win0_0 : Pipeline.Window sig grid0 :=
  Pipeline.Window.ofSpec (Memref.whole main_v9) S3x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S3x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) | 6 => fun i => !(k0_cond1 i == 1#1) | ⟨_ + 7, h⟩ => absurd h (Nat.not_lt.2 (Nat.le_add_left _ _))

class Facts : Prop extends Facts₀ where

variable [Facts]
-- ==== ReferenceIdeal.lean ====
abbrev S8x2048x3 : Shape := ⟨3, ![8, 2048, 3]⟩
abbrev S8x2048 : Shape := ⟨2, ![8, 2048]⟩
abbrev S8x2048x1 : Shape := ⟨3, ![8, 2048, 1]⟩
abbrev S_ : Shape := ⟨0, ![]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S8x1x2048 : Shape := ⟨3, ![8, 1, 2048]⟩
abbrev S8x2048x2048 : Shape := ⟨3, ![8, 2048, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048, .f32⟩
  | .hbm, ⟨2, _⟩ => ⟨S8x2048x1, .f32⟩
  | .hbm, ⟨3, _⟩ => ⟨S8x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x2048x1, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x2048x1x3, .f32⟩
  | .hbm, ⟨22, _⟩ => ⟨S8x1x2048x3, .f32⟩
  | .hbm, ⟨23, _⟩ => ⟨S8x2048x2048x3, .f32⟩
  | .hbm, ⟨24, _⟩ => ⟨S8x2048x2048x3, .f32⟩
  | .hbm, ⟨25, _⟩ => ⟨S8x2048x2048x3, .f32⟩
  | .hbm, ⟨26, _⟩ => ⟨S8x2048x1, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048x3, .f32⟩
  | .hbm, ⟨32, _⟩ => ⟨S_, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .i1⟩
  | .hbm, ⟨37, _⟩ => ⟨S_, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .i1⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_cst_11 : Ref sig .tc := ⟨.hbm, 65, rfl⟩
abbrev main_v37 : Ref sig .tc := ⟨.hbm, 66, rfl⟩
abbrev main_v38 : Ref sig .tc := ⟨.hbm, 67, rfl⟩
abbrev main_cst_12 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]

class Facts₀ : Prop where
  slices_S8x2048x3_S8x2048x1_0_0_1 : S8x2048x3.Slices ![0, 0, 1] S8x2048x1
  shapeCasts_S8x2048x1_S8x2048 : S8x2048x1.ShapeCasts S8x2048
  reducesTo_S8x2048_S_d0_1 : S8x2048.ReducesTo [0, 1] S_
  h_S_ : 0 < S_.numel
  bcast_S_S8x2048 : S_.BroadcastsInDim S8x2048 (![] : Fin 0 → Fin S8x2048.rank)
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  reducesTo_S8x2048x2048x3_S8x2048x2048_d3 : S8x2048x2048x3.ReducesTo [3] S8x2048x2048
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts₀]

class Facts : Prop extends Facts₀ where

variable [Facts]
-- ==== Proof.KI.Runs.lean ====
/-
  The kernel body, run once per control case on any whole staging memrefs.

  The grid is 8 × 8 points (row tile I, column tile J, J innermost). The body's two conditionals read the column
  coordinate only: the first is taken exactly at J = 0, the second exactly at J ≠ 0. At J = 0 the body stores the
  tile's pairwise sum into the collision block and the two row sums (heights; clamped radius minus height) into
  the gravity and ground blocks; at J ≠ 0 it adds the tile's pairwise sum to the collision block and leaves the
  other two blocks as it found them.
-/
import proofs.«159173_j82532091560339_1_alg».proof.Proof.Gen.KernelIdeal.Launch
import proofs.«159173_j82532091560339_1_alg».proof.Proof.Gen.KernelIdeal.Skeleton
import proofs.«159173_j82532091560339_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two conditions, decided over the grid -/

/-- The first conditional is taken at the first column tile of every row tile, -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- and the second at every other column tile. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-! ## The staging memrefs at a point -/

abbrev ms0 (t : Fin cfg0.N) : Memref sig .tc .vmem S3x8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x128 .f32 := win0_6.stage (cfg0.slots t 6)
abbrev hs6 (t : Fin cfg0.N) : (ms6 t).IsWhole := hstage0_6 ((cfg0.slots t 6).cast nbuf0_6)

/-! ## The body at the first column tile -/

set_option maxHeartbeats 4000000 in
/-- At a point with J = 0: from the four input blocks at their contents and the three output buffers at anything,
    the body runs to the inputs as they were and each output buffer overwritten by the pieces the run finds. -/
noncomputable def runA (c : Dev nD) (i : grid0.Coords)
    (arg2 : Memref sig .tc .vmem S3x8x256 .f32) (harg2 : arg2.IsWhole) (arg3 : Memref sig .tc .vmem S3x8x256 .f32) (harg3 : arg3.IsWhole)
    (arg4 : Memref sig .tc .vmem S8x256 .f32) (harg4 : arg4.IsWhole) (arg5 : Memref sig .tc .vmem S8x256 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1x128 .f32) (harg8 : arg8.IsWhole)
    (hc1 : k0_cond1 i = 1#1) (hc2 : ¬ k0_cond2 i = 1#1)
    (x0 x1 : Vec F S3x8x256 .f32) (x2 x3 : Vec F S8x256 .f32) :
    Σ' (L4 : List (View.Piece (Elt F) S1x1x128 .f32)) (L5 : List (View.Piece (Elt F) S1x1x128 .f32)), { L6 : List (View.Piece (Elt F) S1x1x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1
    obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

/-! ## The body at a later column tile -/

set_option maxHeartbeats 4000000 in
/-- At a point with J ≠ 0: from the four input blocks at their contents and the collision buffer at the running
    contents `xo`, the body runs to the inputs as they were and the collision buffer overwritten by the pieces the
    run finds; it touches neither of the other two output buffers. -/
noncomputable def runB (c : Dev nD) (i : grid0.Coords)
    (arg2 : Memref sig .tc .vmem S3x8x256 .f32) (harg2 : arg2.IsWhole) (arg3 : Memref sig .tc .vmem S3x8x256 .f32) (harg3 : arg3.IsWhole)
    (arg4 : Memref sig .tc .vmem S8x256 .f32) (harg4 : arg4.IsWhole) (arg5 : Memref sig .tc .vmem S8x256 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1x128 .f32) (harg8 : arg8.IsWhole)
    (hc1 : ¬ k0_cond1 i = 1#1) (hc2 : k0_cond2 i = 1#1)
    (x0 x1 : Vec F S3x8x256 .f32) (x2 x3 : Vec F S8x256 .f32) (xo : Vec F S1x1x128 .f32) :
    { L4 : List (View.Piece (Elt F) S1x1x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.Data.lean ====
/-
  What the three output blocks hold after each grid point, and the pipeline's proof data.

  Points are numbered t = 8·I + J. The collision block is reset at J = 0 to the tile's pairwise sum and takes
  one more tile's sum at each later J; the gravity and ground blocks are written at J = 0 and kept to the end of
  the row, where all three are written back (t ≡ 7 mod 8).
-/
import proofs.«159173_j82532091560339_1_alg».proof.Proof.KI.Runs
import Idealize.ShloMosaic.Lib.Pipeline.Frame
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m ((c : Dev nD), b)
/-- and when the region is entered: the ten host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What a case leaves in each output block -/

/-- One staging buffer per output window, through which a block's contents are stated. -/
abbrev VO4 : View sig .tc .vmem S1x1x128 .f32 := (Memref.whole cc0_stg4_0 : Memref sig .tc .vmem S1x1x128 .f32).view
abbrev VO5 : View sig .tc .vmem S1x1x128 .f32 := (Memref.whole cc0_stg5_0 : Memref sig .tc .vmem S1x1x128 .f32).view
abbrev VO6 : View sig .tc .vmem S1x1x128 .f32 := (Memref.whole cc0_stg6_0 : Memref sig .tc .vmem S1x1x128 .f32).view

/-- The three blocks after the body at a point with J = 0, from the point's four input blocks. -/
def outA (c : Dev nD) (t : Fin cfg0.N) (h : t.val % 8 = 0) (x0 x1 : Vec F S3x8x256 .f32) (x2 x3 : Vec F S8x256 .f32) :
    Vec F S1x1x128 .f32 × Vec F S1x1x128 .f32 × Vec F S1x1x128 .f32 :=
  let r := runA c (grid0.coords t) (ms0 t) (hs0 t) (ms1 t) (hs1 t) (ms2 t) (hs2 t) (ms3 t) (hs3 t) (ms4 t) (hs4 t) (ms5 t) (hs5 t) (ms6 t) (hs6 t)
    ((hcond1 t).mpr h) (fun h2 => (hcond2 t).mp h2 h) x0 x1 x2 x3
  (VO4.read (Elt F) (VO4.writes (Elt F) VO4.junk r.1), VO5.read (Elt F) (VO5.writes (Elt F) VO5.junk r.2.1),
    VO6.read (Elt F) (VO6.writes (Elt F) VO6.junk r.2.2.1))

/-- The collision block after the body at a point with J ≠ 0, over what the point before left there. -/
def outB (c : Dev nD) (t : Fin cfg0.N) (h : ¬ t.val % 8 = 0) (x0 x1 : Vec F S3x8x256 .f32) (x2 x3 : Vec F S8x256 .f32)
    (xo : Vec F S1x1x128 .f32) : Vec F S1x1x128 .f32 :=
  VO4.read (Elt F) (VO4.writes (Elt F) VO4.junk
    (runB c (grid0.coords t) (ms0 t) (hs0 t) (ms1 t) (hs1 t) (ms2 t) (hs2 t) (ms3 t) (hs3 t) (ms4 t) (hs4 t) (ms5 t) (hs5 t) (ms6 t) (hs6 t)
      (fun h1 => h ((hcond1 t).mp h1)) ((hcond2 t).mpr h) x0 x1 x2 x3 xo).1)

/-! ## Point by point -/

/-- What the three output blocks hold after the body at position `n`: at J = 0 what that case writes; at J ≠ 0
    the collision block updated over the point before, the other two as the point before left them. -/
def outsAt (c : Dev nD) : (n : ℕ) → n < cfg0.N → Vec F S1x1x128 .f32 × Vec F S1x1x128 .f32 × Vec F S1x1x128 .f32
  | 0, hn => outA c ⟨0, hn⟩ (Nat.zero_mod _) (iblk m c 0 ⟨0, hn⟩) (iblk m c 1 ⟨0, hn⟩) (iblk m c 2 ⟨0, hn⟩) (iblk m c 3 ⟨0, hn⟩)
  | n + 1, hn =>
    if h : (n + 1) % 8 = 0 then
      outA c ⟨n + 1, hn⟩ h (iblk m c 0 ⟨n + 1, hn⟩) (iblk m c 1 ⟨n + 1, hn⟩) (iblk m c 2 ⟨n + 1, hn⟩) (iblk m c 3 ⟨n + 1, hn⟩)
    else
      (outB c ⟨n + 1, hn⟩ h (iblk m c 0 ⟨n + 1, hn⟩) (iblk m c 1 ⟨n + 1, hn⟩) (iblk m c 2 ⟨n + 1, hn⟩) (iblk m c 3 ⟨n + 1, hn⟩)
          (outsAt c n (Nat.lt_of_succ_lt hn)).1,
        (outsAt c n (Nat.lt_of_succ_lt hn)).2.1, (outsAt c n (Nat.lt_of_succ_lt hn)).2.2)

/-- `outsAt` at a point with J = 0. -/
theorem outsAt_A (c : Dev nD) (t : Fin cfg0.N) (h : t.val % 8 = 0) :
    outsAt m c t.val t.isLt = outA c t h (iblk m c 0 t) (iblk m c 1 t) (iblk m c 2 t) (iblk m c 3 t) := by
  obtain ⟨n, hn⟩ := t
  cases n with
  | zero => exact rfl
  | succ n => exact (dif_pos h).trans rfl

/-- `outsAt` at a point with J ≠ 0, over the point before. -/
theorem outsAt_B (c : Dev nD) (t : Fin cfg0.N) (h : ¬ t.val % 8 = 0) :
    outsAt m c t.val t.isLt =
      (outB c t h (iblk m c 0 t) (iblk m c 1 t) (iblk m c 2 t) (iblk m c 3 t)
          (outsAt m c (t.val - 1) (Nat.lt_of_le_of_lt (Nat.sub_le _ _) t.isLt)).1,
        (outsAt m c (t.val - 1) (Nat.lt_of_le_of_lt (Nat.sub_le _ _) t.isLt)).2.1,
        (outsAt m c (t.val - 1) (Nat.lt_of_le_of_lt (Nat.sub_le _ _) t.isLt)).2.2) := by
  obtain ⟨n, hn⟩ := t
  cases n with
  | zero => exact absurd (Nat.zero_mod _) h
  | succ n => exact (dif_neg h).trans rfl

/-! ## The proof data -/

/-- Each of the two position windows holds half of the stacked position array, each of the two radius windows half
    of the radius array; an output array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.scopedRest spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]
theorem after_5 (c : Dev nD) (t : Fin cfg0.N) : (dats m 0 c).after 5 t = (outsAt m c t.val t.isLt).2.1 := by dsimp only [dats]
theorem after_6 (c : Dev nD) (t : Fin cfg0.N) : (dats m 0 c).after 6 t = (outsAt m c t.val t.isLt).2.2 := by dsimp only [dats]

end Cert.KernelIdeal.Hand

end
-- ==== Proof.KI.Body.lean ====
/-
  The body obligation: at every grid point, from the seven current staging buffers at what they then hold, the
  kernel body runs to the buffers at what the proof data says it leaves.
-/
import proofs.«159173_j82532091560339_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The input windows: each current buffer holds its block -/

/-- An input window's current staging buffer holds the window's block at every point, fetched there or not: the
    body leaves the block in place, and an unfetched window's block index has not moved. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## Where the output windows are idle, decided over the grid -/

/-- The collision window is stored at every point: one of the two conditionals is always taken. -/
theorem idle_4 : ∀ t : Fin cfg0.N, cfg0.idle 4 (grid0.coords t) = false :=
  (by decide +kernel : ∀ t : Fin grid0.N, idle0 4 (grid0.coords t) = false)
/-- The gravity and ground windows are stored at the first column tile of a row only. -/
theorem idle_5 : ∀ t : Fin cfg0.N, cfg0.idle 5 (grid0.coords t) = true ↔ ¬ t.val % 8 = 0 :=
  (by decide +kernel : ∀ t : Fin grid0.N, idle0 5 (grid0.coords t) = true ↔ ¬ t.val % 8 = 0)
theorem idle_6 : ∀ t : Fin cfg0.N, cfg0.idle 6 (grid0.coords t) = true ↔ ¬ t.val % 8 = 0 :=
  (by decide +kernel : ∀ t : Fin grid0.N, idle0 6 (grid0.coords t) = true ↔ ¬ t.val % 8 = 0)

/-- The collision window is live at every coordinate: the two conditions read the column coordinate only, and one
    of them holds at each of its eight values. -/
theorem live_4 (i : grid0.Coords) : cfg0.idle 4 i = false := by
  show (!(k0_cond1 i == 1#1) && !(k0_cond2 i == 1#1)) = false
  unfold k0_cond1 k0_cond2
  generalize i 1 = j
  revert j; decide

/-! ## The output windows: what the body finds after the first column tile of a row -/

/-- After the first column tile of a row the collision buffer holds what the body left at the point before: the
    point is not the first, the block was not written back between (that happens at the last column tile only), and
    the window is live and uncut. -/
theorem before_4_B (c : Dev nD) (t : Fin cfg0.N) (h : ¬ t.val % 8 = 0) (d) :
    (dats m 0 c).before 4 t d = (outsAt m c (t.val - 1) (Nat.lt_of_le_of_lt (Nat.sub_le _ _) t.isLt)).1 := by
  have hN : t.val < 64 := lt_of_lt_of_eq t.isLt N_0
  rw [Dat.before_out_kept _ 4 rfl t (by omega)
    (Bool.eq_false_iff.mpr fun hf => by have := (flush0_4 _).mp hf; dsimp only at this; omega)
    live_4 (fun _ _ => rfl), after_4]

/-- After the first column tile of a row the gravity buffer still holds what the first column tile left: the window
    is idle from the second column tile on and is written back at the last only. By induction along the row. -/
theorem before_5_B (c : Dev nD) : ∀ (n : ℕ) (hn : n < cfg0.N) (h : ¬ n % 8 = 0) (d),
    (dats m 0 c).before 5 ⟨n, hn⟩ d = (outsAt m c (n - 1) (Nat.lt_of_le_of_lt (Nat.sub_le _ _) hn)).2.1 := by
  intro n
  induction n using Nat.strong_induction_on with
  | _ n ih =>
    intro hn h d
    have hN : n < 64 := lt_of_lt_of_eq hn N_0
    rw [Dat.before_of_pos _ 5 ⟨n, hn⟩ (by show n ≠ 0; omega) rfl d,
      if_neg (fun hf => by have := (flush0_5 _).mp hf; dsimp only at this; omega)]
    unfold Dat.left
    by_cases h1 : (n - 1) % 8 = 0
    · have hi : cfg0.idle 5 (cfg0.grid.coords ⟨n - 1, Nat.lt_of_le_of_lt (Nat.sub_le _ _) hn⟩) = false :=
        Bool.eq_false_iff.mpr fun hh => (idle_5 _).mp hh h1
      rw [hi]; dsimp only
      unfold Dat.kept
      rw [Pipeline.fill_of_clip_none 5 _ (fun _ => rfl) d ((dats m 0 c).after 5 _), Window.fill_cut, after_5]
    · have hi : cfg0.idle 5 (cfg0.grid.coords ⟨n - 1, Nat.lt_of_le_of_lt (Nat.sub_le _ _) hn⟩) = true := (idle_5 _).mpr h1
      rw [hi]; dsimp only
      rw [ih (n - 1) (by omega) _ h1 d, outsAt_B m c ⟨n - 1, Nat.lt_of_le_of_lt (Nat.sub_le _ _) hn⟩ h1]

/-- The same of the ground buffer. -/
theorem before_6_B (c : Dev nD) : ∀ (n : ℕ) (hn : n < cfg0.N) (h : ¬ n % 8 = 0) (d),
    (dats m 0 c).before 6 ⟨n, hn⟩ d = (outsAt m c (n - 1) (Nat.lt_of_le_of_lt (Nat.sub_le _ _) hn)).2.2 := by
  intro n
  induction n using Nat.strong_induction_on with
  | _ n ih =>
    intro hn h d
    have hN : n < 64 := lt_of_lt_of_eq hn N_0
    rw [Dat.before_of_pos _ 6 ⟨n, hn⟩ (by show n ≠ 0; omega) rfl d,
      if_neg (fun hf => by have := (flush0_6 _).mp hf; dsimp only at this; omega)]
    unfold Dat.left
    by_cases h1 : (n - 1) % 8 = 0
    · have hi : cfg0.idle 6 (cfg0.grid.coords ⟨n - 1, Nat.lt_of_le_of_lt (Nat.sub_le _ _) hn⟩) = false :=
        Bool.eq_false_iff.mpr fun hh => (idle_6 _).mp hh h1
      rw [hi]; dsimp only
      unfold Dat.kept
      rw [Pipeline.fill_of_clip_none 6 _ (fun _ => rfl) d ((dats m 0 c).after 6 _), Window.fill_cut, after_6]
    · have hi : cfg0.idle 6 (cfg0.grid.coords ⟨n - 1, Nat.lt_of_le_of_lt (Nat.sub_le _ _) hn⟩) = true := (idle_6 _).mpr h1
      rw [hi]; dsimp only
      rw [ih (n - 1) (by omega) _ h1 d, outsAt_B m c ⟨n - 1, Nat.lt_of_le_of_lt (Nat.sub_le _ _) hn⟩ h1]

/-! ## The stores of each case cover the blocks they write -/

/-- At the first column tile the stores into the collision block tile it, so they cover it; -/
theorem coverA_4 (c : Dev nD) (i : grid0.Coords)
    (arg2 : Memref sig .tc .vmem S3x8x256 .f32) (harg2 : arg2.IsWhole) (arg3 : Memref sig .tc .vmem S3x8x256 .f32) (harg3 : arg3.IsWhole)
    (arg4 : Memref sig .tc .vmem S8x256 .f32) (harg4 : arg4.IsWhole) (arg5 : Memref sig .tc .vmem S8x256 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1x128 .f32) (harg8 : arg8.IsWhole)
    (hc1 : k0_cond1 i = 1#1) (hc2 : ¬ k0_cond2 i = 1#1)
    (x0 x1 : Vec F S3x8x256 .f32) (x2 x3 : Vec F S8x256 .f32) (y : S1x1x128.Idx) :
    ∃ pc ∈ (runA c i arg2 harg2 arg3 harg3 arg4 harg4 arg5 harg5 arg6 harg6 arg7 harg7 arg8 harg8 hc1 hc2 x0 x1 x2 x3).1, y ∈ pc.1.set :=
  View.cover_of_tiledL (runA c i arg2 harg2 arg3 harg3 arg4 harg4 arg5 harg5 arg6 harg6 arg7 harg7 arg8 harg8 hc1 hc2 x0 x1 x2 x3).1 S1x1x128.size (by sl_kernel_rfl) y
/-- and so do those into the gravity block -/
theorem coverA_5 (c : Dev nD) (i : grid0.Coords)
    (arg2 : Memref sig .tc .vmem S3x8x256 .f32) (harg2 : arg2.IsWhole) (arg3 : Memref sig .tc .vmem S3x8x256 .f32) (harg3 : arg3.IsWhole)
    (arg4 : Memref sig .tc .vmem S8x256 .f32) (harg4 : arg4.IsWhole) (arg5 : Memref sig .tc .vmem S8x256 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1x128 .f32) (harg8 : arg8.IsWhole)
    (hc1 : k0_cond1 i = 1#1) (hc2 : ¬ k0_cond2 i = 1#1)
    (x0 x1 : Vec F S3x8x256 .f32) (x2 x3 : Vec F S8x256 .f32) (y : S1x1x128.Idx) :
    ∃ pc ∈ (runA c i arg2 harg2 arg3 harg3 arg4 harg4 arg5 harg5 arg6 harg6 arg7 harg7 arg8 harg8 hc1 hc2 x0 x1 x2 x3).2.1, y ∈ pc.1.set :=
  View.cover_of_tiledL (runA c i arg2 harg2 arg3 harg3 arg4 harg4 arg5 harg5 arg6 harg6 arg7 harg7 arg8 harg8 hc1 hc2 x0 x1 x2 x3).2.1 S1x1x128.size (by sl_kernel_rfl) y
/-- and into the ground block. -/
theorem coverA_6 (c : Dev nD) (i : grid0.Coords)
    (arg2 : Memref sig .tc .vmem S3x8x256 .f32) (harg2 : arg2.IsWhole) (arg3 : Memref sig .tc .vmem S3x8x256 .f32) (harg3 : arg3.IsWhole)
    (arg4 : Memref sig .tc .vmem S8x256 .f32) (harg4 : arg4.IsWhole) (arg5 : Memref sig .tc .vmem S8x256 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1x128 .f32) (harg8 : arg8.IsWhole)
    (hc1 : k0_cond1 i = 1#1) (hc2 : ¬ k0_cond2 i = 1#1)
    (x0 x1 : Vec F S3x8x256 .f32) (x2 x3 : Vec F S8x256 .f32) (y : S1x1x128.Idx) :
    ∃ pc ∈ (runA c i arg2 harg2 arg3 harg3 arg4 harg4 arg5 harg5 arg6 harg6 arg7 harg7 arg8 harg8 hc1 hc2 x0 x1 x2 x3).2.2.1, y ∈ pc.1.set :=
  View.cover_of_tiledL (runA c i arg2 harg2 arg3 harg3 arg4 harg4 arg5 harg5 arg6 harg6 arg7 harg7 arg8 harg8 hc1 hc2 x0 x1 x2 x3).2.2.1 S1x1x128.size (by sl_kernel_rfl) y
/-- At a later column tile the store into the collision block covers it. -/
theorem coverB_4 (c : Dev nD) (i : grid0.Coords)
    (arg2 : Memref sig .tc .vmem S3x8x256 .f32) (harg2 : arg2.IsWhole) (arg3 : Memref sig .tc .vmem S3x8x256 .f32) (harg3 : arg3.IsWhole)
    (arg4 : Memref sig .tc .vmem S8x256 .f32) (harg4 : arg4.IsWhole) (arg5 : Memref sig .tc .vmem S8x256 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S1x1x128 .f32) (harg8 : arg8.IsWhole)
    (hc1 : ¬ k0_cond1 i = 1#1) (hc2 : k0_cond2 i = 1#1)
    (x0 x1 : Vec F S3x8x256 .f32) (x2 x3 : Vec F S8x256 .f32) (xo : Vec F S1x1x128 .f32) (y : S1x1x128.Idx) :
    ∃ pc ∈ (runB c i arg2 harg2 arg3 harg3 arg4 harg4 arg5 harg5 arg6 harg6 arg7 harg7 arg8 harg8 hc1 hc2 x0 x1 x2 x3 xo).1, y ∈ pc.1.set :=
  View.cover_of_tiledL (runB c i arg2 harg2 arg3 harg3 arg4 harg4 arg5 harg5 arg6 harg6 arg7 harg7 arg8 harg8 hc1 hc2 x0 x1 x2 x3 xo).1 S1x1x128.size (by sl_kernel_rfl) y

/-! ## The post of a window, by whether it is live or written back at the point -/

/-- A window live at a point is left at what the proof data says; -/
theorem leaves_live (c : Dev nD) (w : Fin cfg0.W) (t : Fin cfg0.N) (hi : cfg0.idle w (cfg0.grid.coords t) = false) :
    (dats m 0 c).leavesExact w t
      = owns (c : Thread nD τ) ((cfg0.win w).stage (cfg0.slots t w)) fullShare ((dats m 0 c).after w t) := by
  unfold Dat.leavesExact; rw [hi]

/-- so is one written back at the point, idle there or not. -/
theorem leaves_flush (c : Dev nD) (w : Fin cfg0.W) (t : Fin cfg0.N) (hf : (cfg0.win w).flush t = true) :
    (dats m 0 c).leavesExact w t
      = owns (c : Thread nD τ) ((cfg0.win w).stage (cfg0.slots t w)) fullShare ((dats m 0 c).after w t) := by
  unfold Dat.leavesExact; rw [hf]; split <;> rfl

theorem before_5_B' (c : Dev nD) (t : Fin cfg0.N) (h : ¬ t.val % 8 = 0) (d) :
    (dats m 0 c).before 5 t d = (outsAt m c (t.val - 1) (Nat.lt_of_le_of_lt (Nat.sub_le _ _) t.isLt)).2.1 :=
  before_5_B m c t.val t.isLt h d
theorem before_6_B' (c : Dev nD) (t : Fin cfg0.N) (h : ¬ t.val % 8 = 0) (d) :
    (dats m 0 c).before 6 t d = (outsAt m c (t.val - 1) (Nat.lt_of_le_of_lt (Nat.sub_le _ _) t.isLt)).2.2 :=
  before_6_B m c t.val t.isLt h d

/-- After the first column tile of a row the body does not touch the gravity buffer, and that is what the window's
    post asks: before the last column tile the buffer as it was found; at the last, where the block is written back,
    the buffer at the row's value, which is what it has held since the first column tile. -/
theorem keep_5 (c : Dev nD) (t : Fin cfg0.N) (h : ¬ t.val % 8 = 0) :
    iprop(∃ d, owns (c : Thread nD τ) (ms5 t) fullShare ((dats m 0 c).before 5 t d))
      ⊢ ((dats m 0 c).leavesExact 5 t : sProp 𝕄) := by
  by_cases h7 : t.val % 8 = 7
  · rw [leaves_flush m c 5 t ((flush0_5 t).mpr h7), after_5, outsAt_B m c t h]
    simp only [before_5_B' m c t h]
    iintro ⟨%d, H⟩; iexact H
  · rw [Dat.leavesExact_idle _ 5 t ((idle_5 t).mpr h) (Bool.eq_false_iff.mpr fun hf => h7 ((flush0_5 t).mp hf))]

/-- The same of the ground buffer. -/
theorem keep_6 (c : Dev nD) (t : Fin cfg0.N) (h : ¬ t.val % 8 = 0) :
    iprop(∃ d, owns (c : Thread nD τ) (ms6 t) fullShare ((dats m 0 c).before 6 t d))
      ⊢ ((dats m 0 c).leavesExact 6 t : sProp 𝕄) := by
  by_cases h7 : t.val % 8 = 7
  · rw [leaves_flush m c 6 t ((flush0_6 t).mpr h7), after_6, outsAt_B m c t h]
    simp only [before_6_B' m c t h]
    iintro ⟨%d, H⟩; iexact H
  · rw [Dat.leavesExact_idle _ 6 t ((idle_6 t).mpr h) (Bool.eq_false_iff.mpr fun hf => h7 ((flush0_6 t).mp hf))]

/-! ## The body obligation, at a generic point -/

/-- What the body is called with at point `t`: the invariant, what the core owes, and the seven current buffers, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point. The input buffers hold their blocks. At the first column tile of a row the first case runs
    from the three output buffers at anything and overwrites each wholly. At a later column tile the second case runs
    from the collision buffer at what the point before left and overwrites it wholly; the other two output buffers
    pass by untouched. The invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 4 t (idle_4 t), after_0, after_1, after_2, after_3, after_4]
  have hN : t.val < 64 := lt_of_lt_of_eq t.isLt N_0
  by_cases h : t.val % 8 = 0
  · rw [leaves_live m c 5 t (Bool.eq_false_iff.mpr fun hh => (idle_5 t).mp hh h),
      leaves_live m c 6 t (Bool.eq_false_iff.mpr fun hh => (idle_6 t).mp hh h), after_5, after_6, outsAt_A m c t h]
    unfold outA; dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((hcond1 t).mpr h) (fun h2 => (hcond2 t).mp h2 h)
      (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 c _ _ _ _ _ _ _ _ _ _ _ _ _ _ _ _ _ _ _ _ _)
    isplitl [H5]
    · unfold owns; iexists _; isplitr
      swap; · iexact H5
      ipureintro; exact View.read_writes_of_cover _ _ _ _ _ (coverA_5 c _ _ _ _ _ _ _ _ _ _ _ _ _ _ _ _ _ _ _ _ _)
    unfold owns; iexists _; isplitr
    swap; · iexact H6
    ipureintro; exact View.read_writes_of_cover _ _ _ _ _ (coverA_6 c _ _ _ _ _ _ _ _ _ _ _ _ _ _ _ _ _ _ _ _ _)
  · rw [outsAt_B m c t h]; dsimp only
    simp only [before_4_B m c t h]
    unfold outB
    iintro ⟨HΦ, Ho, ⟨%d0, H0⟩, ⟨%d1, H1⟩, ⟨%d2, H2⟩, ⟨%d3, H3⟩, ⟨%d4, H4⟩, H5, H6⟩
    iapply ((runB c (grid0.coords t) _ _ _ _ _ _ _ _ _ _ _ _ _ _ (fun h1 => h ((hcond1 t).mp h1)) ((hcond2 t).mpr h)
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB_4 c _ _ _ _ _ _ _ _ _ _ _ _ _ _ _ _ _ _ _ _ _ _)
    isplitl [H5]; · iapply (keep_5 m c t h); iexact H5
    iapply (keep_6 m c t h); iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch: @main as five segments — the ten host operations that stack the three coordinate planes, the kernel
  region, and the three stretches of closing host arithmetic — and the run it gives.

  The stacked position array is read by two windows and the radius array by two windows: each of the two holds
  half of its array through the region, and the halves are joined again at the region's exit, where the inputs
  hold what they held at entry and the three result arrays what the write-backs left.
-/
import proofs.«159173_j82532091560339_1_alg».proof.Proof.KI.Body
import Idealize.ShloMosaic.Lib.Pipeline.Frame
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole user algebra. -/
abbrev EP : Emb (UR sig nD τ) (MT nD τ sig Unit (Elt F) ℕ (UR sig nD τ) ℕ) := emb₁

/-- What rides beside the buffers through every segment: the core owes nothing. -/
abbrev R (c : Dev nD) : sProp 𝕄 := iprop(∃ W, owes (c : Thread nD τ) (0 : CellTallies nD τ sig Unit) W)

/-- The set all host operations run within. -/
abbrev UC : Finset (DevRef τ sig) := Pipeline.ucRefs τ sig

/-! ## The valuations between the segments -/

/-- At the region's entry: the ten host operations have run. -/
abbrev Vin (c : Dev nD) : Valuation τ sig (Elt F) := StableHlo.after hostOps0 (V₀ m c)

/-- At the region's exit: the three result arrays at what the write-backs left, every other buffer as at entry. -/
def Vout (c : Dev nD) : Valuation τ sig (Elt F) :=
  Function.update (Function.update (Function.update (Vin m c)
    (Proc.devRef .tc main_v10_0) ((dats m 0 c).arrAt 4 cfg0.N))
    (Proc.devRef .tc main_v10_1) ((dats m 0 c).arrAt 5 cfg0.N))
    (Proc.devRef .tc main_v10_2) ((dats m 0 c).arrAt 6 cfg0.N)

/-- At the end. -/
def Vfin (c : Dev nD) : Valuation τ sig (Elt F) :=
  StableHlo.after hostOps1_2 (StableHlo.after hostOps1_1 (StableHlo.after hostOps1 (Vout m c)))

/-! ## The five arrays of the pipeline among the unscoped buffers -/

/-- The buffers behind the windows' arrays: the stacked positions, the radii, the three results. -/
def T5 : Finset (DevRef τ sig) :=
  {Proc.devRef .tc main_v9, Proc.devRef .tc main_arg1, Proc.devRef .tc main_v10_0, Proc.devRef .tc main_v10_1, Proc.devRef .tc main_v10_2}

theorem T5_sub : (T5 : Finset (DevRef τ sig)) ⊆ UC := by
  intro b hb
  simp only [T5, Finset.mem_insert, Finset.mem_singleton] at hb
  rcases hb with rfl | rfl | rfl | rfl | rfl <;>
    exact Finset.mem_filter.mpr ⟨StableHlo.devRef_mem_tcRefs _, by decide⟩

omit [FloatOps F] in
/-- The five, held at a valuation, one by one. -/
theorem held_T5 (c : Dev nD) (W : Valuation τ sig (Elt F)) :
    (StableHlo.held (c : Thread nD τ) T5 W : sProp 𝕄)
      = iprop((((c : Thread nD τ).1, Proc.devRef .tc main_v9) ↦{fullShare} W (Proc.devRef .tc main_v9))
        ∗ (((c : Thread nD τ).1, Proc.devRef .tc main_arg1) ↦{fullShare} W (Proc.devRef .tc main_arg1))
        ∗ (((c : Thread nD τ).1, Proc.devRef .tc main_v10_0) ↦{fullShare} W (Proc.devRef .tc main_v10_0))
        ∗ (((c : Thread nD τ).1, Proc.devRef .tc main_v10_1) ↦{fullShare} W (Proc.devRef .tc main_v10_1))
        ∗ (((c : Thread nD τ).1, Proc.devRef .tc main_v10_2) ↦{fullShare} W (Proc.devRef .tc main_v10_2))) := by
  unfold StableHlo.held T5
  rw [bigSep_insert (by decide), bigSep_insert (by decide), bigSep_insert (by decide), bigSep_insert (by decide), BI.bigSep_singleton]
  rfl

/-! ## The exit valuation at the five arrays and off them -/

theorem Vout_v9 (c : Dev nD) : Vout m c (Proc.devRef .tc main_v9) = Vin m c (Proc.devRef .tc main_v9) := by
  unfold Vout
  rw [Function.update_of_ne (by decide), Function.update_of_ne (by decide), Function.update_of_ne (by decide)]
theorem Vout_arg1 (c : Dev nD) : Vout m c (Proc.devRef .tc main_arg1) = Vin m c (Proc.devRef .tc main_arg1) := by
  unfold Vout
  rw [Function.update_of_ne (by decide), Function.update_of_ne (by decide), Function.update_of_ne (by decide)]
theorem Vout_r0 (c : Dev nD) : Vout m c (Proc.devRef .tc main_v10_0) = (dats m 0 c).arrAt 4 cfg0.N := by
  unfold Vout
  rw [Function.update_of_ne (by decide), Function.update_of_ne (by decide), Function.update_self]
theorem Vout_r1 (c : Dev nD) : Vout m c (Proc.devRef .tc main_v10_1) = (dats m 0 c).arrAt 5 cfg0.N := by
  unfold Vout
  rw [Function.update_of_ne (by decide), Function.update_self]
theorem Vout_r2 (c : Dev nD) : Vout m c (Proc.devRef .tc main_v10_2) = (dats m 0 c).arrAt 6 cfg0.N := by
  unfold Vout
  rw [Function.update_self]
theorem Vout_off (c : Dev nD) (b : DevRef τ sig) (hb : b ∈ (UC : Finset (DevRef τ sig)) \ T5) : Vout m c b = Vin m c b := by
  have h := (Finset.mem_sdiff.mp hb).2
  simp only [T5, Finset.mem_insert, Finset.mem_singleton, not_or] at h
  unfold Vout
  rw [Function.update_of_ne h.2.2.2.2, Function.update_of_ne h.2.2.2.1, Function.update_of_ne h.2.2.1]

/-! ## The pipeline's arrays, window by window -/

theorem share_0 (c : Dev nD) : (dats m 0 c).share 0 = fullShare.left := by
  unfold Dat.share; rw [if_neg (by decide)]; dsimp only [dats]
theorem share_1 (c : Dev nD) : (dats m 0 c).share 1 = fullShare.right := by
  unfold Dat.share; rw [if_neg (by decide)]; dsimp only [dats]
theorem share_2 (c : Dev nD) : (dats m 0 c).share 2 = fullShare.left := by
  unfold Dat.share; rw [if_neg (by decide)]; dsimp only [dats]
theorem share_3 (c : Dev nD) : (dats m 0 c).share 3 = fullShare.right := by
  unfold Dat.share; rw [if_neg (by decide)]; dsimp only [dats]
theorem share_4 (c : Dev nD) : (dats m 0 c).share 4 = fullShare := by
  unfold Dat.share; rw [if_pos (by decide)]
theorem share_5 (c : Dev nD) : (dats m 0 c).share 5 = fullShare := by
  unfold Dat.share; rw [if_pos (by decide)]
theorem share_6 (c : Dev nD) : (dats m 0 c).share 6 = fullShare := by
  unfold Dat.share; rw [if_pos (by decide)]

/-- The proof data's arrays at contents `G`: the two halves of the stacked positions, the two halves of the radii,
    the three results whole. -/
theorem arrays_chain (c : Dev nD) (G : (w : Fin cfg0.W) → Buf (Elt F) ((cfg0.win w).arr.view.loc (c : Thread nD τ))) :
    ((dats m 0 c).arrays G : sProp 𝕄)
      = iprop((((c : Thread nD τ).1, Proc.devRef .tc main_v9) ↦{fullShare.left} G 0)
        ∗ (((c : Thread nD τ).1, Proc.devRef .tc main_v9) ↦{fullShare.right} G 1)
        ∗ (((c : Thread nD τ).1, Proc.devRef .tc main_arg1) ↦{fullShare.left} G 2)
        ∗ (((c : Thread nD τ).1, Proc.devRef .tc main_arg1) ↦{fullShare.right} G 3)
        ∗ (((c : Thread nD τ).1, Proc.devRef .tc main_v10_0) ↦{fullShare} G 4)
        ∗ (((c : Thread nD τ).1, Proc.devRef .tc main_v10_1) ↦{fullShare} G 5)
        ∗ (((c : Thread nD τ).1, Proc.devRef .tc main_v10_2) ↦{fullShare} G 6)) := by
  unfold Dat.arrays
  rw [bigSep_W0, share_0, share_1, share_2, share_3, share_4, share_5, share_6,
    (arr_whole0 0).set_eq_univ, (arr_whole0 2).set_eq_univ,
    (arr_whole0 4).set_eq_univ, (arr_whole0 5).set_eq_univ, (arr_whole0 6).set_eq_univ]

/-! ## The segments -/

/-- The ten host operations before the region, over the unscoped buffers. -/
def seg0 : Pipeline.HostSeg (Name := ℕ) (U := UR sig nD τ) (pcfgs (F := F)) defs₀ 𝒱₀ L lv :=
  Pipeline.HostSeg.ofOps _ _ _ _ _ UC hostOps0 (fun op h => Pipeline.sub_ucRefs op ((List.forall_iff_forall_mem.mp hostOps0_sub) op h))
    (by intro _ h; (repeat (cases h with | head => rfl | tail _ h => ?_)); exact nomatch h) (V₀ m) R

/-- The three stretches after the region: the row sums and means, the softplus, the weighted sum. -/
def seg1 : Pipeline.HostSeg (Name := ℕ) (U := UR sig nD τ) (pcfgs (F := F)) defs₀ 𝒱₀ L lv :=
  Pipeline.HostSeg.ofOps _ _ _ _ _ UC hostOps1 (fun op h => Pipeline.sub_ucRefs op ((List.forall_iff_forall_mem.mp hostOps1_sub) op h))
    (by intro _ h; (repeat (cases h with | head => rfl | tail _ h => ?_)); exact nomatch h) (Vout m) R
def seg2 : Pipeline.HostSeg (Name := ℕ) (U := UR sig nD τ) (pcfgs (F := F)) defs₀ 𝒱₀ L lv :=
  Pipeline.HostSeg.ofOps _ _ _ _ _ UC hostOps1_1 (fun op h => Pipeline.sub_ucRefs op ((List.forall_iff_forall_mem.mp hostOps1_1_sub) op h))
    (by intro _ h; (repeat (cases h with | head => rfl | tail _ h => ?_)); exact nomatch h) (fun c => StableHlo.after hostOps1 (Vout m c)) R
def seg3 : Pipeline.HostSeg (Name := ℕ) (U := UR sig nD τ) (pcfgs (F := F)) defs₀ 𝒱₀ L lv :=
  Pipeline.HostSeg.ofOps _ _ _ _ _ UC hostOps1_2 (fun op h => Pipeline.sub_ucRefs op ((List.forall_iff_forall_mem.mp hostOps1_2_sub) op h))
    (by intro _ h; (repeat (cases h with | head => rfl | tail _ h => ?_)); exact nomatch h)
    (fun c => StableHlo.after hostOps1_1 (StableHlo.after hostOps1 (Vout m c))) R

/-- The inputs' arrays hold at the end of the region what they held at its entry. -/
theorem arrAt_in0 (c : Dev nD) : (dats m 0 c).arrAt 0 cfg0.N = Vin m c (Proc.devRef .tc main_v9) :=
  ((dats m 0 c).arrAt_in 0 rfl cfg0.N).trans (A_eq m c 0)
theorem arrAt_in1 (c : Dev nD) : (dats m 0 c).arrAt 1 cfg0.N = Vin m c (Proc.devRef .tc main_v9) :=
  ((dats m 0 c).arrAt_in 1 rfl cfg0.N).trans (A_eq m c 1)
theorem arrAt_in2 (c : Dev nD) : (dats m 0 c).arrAt 2 cfg0.N = Vin m c (Proc.devRef .tc main_arg1) :=
  ((dats m 0 c).arrAt_in 2 rfl cfg0.N).trans (A_eq m c 2)
theorem arrAt_in3 (c : Dev nD) : (dats m 0 c).arrAt 3 cfg0.N = Vin m c (Proc.devRef .tc main_arg1) :=
  ((dats m 0 c).arrAt_in 3 rfl cfg0.N).trans (A_eq m c 3)

set_option backward.isDefEq.respectTransparency.types false in
/-- THE REGION: entered from what the first stretch left — the five arrays into the pipeline, the stacked
    positions and the radii each split in two halves, every other unscoped buffer bypassing —, left with the halves
    joined again and the three results at what the write-backs made of them. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) UC (Vin m c) ∗ R c)
  post c := iprop(StableHlo.held (c : Thread nD τ) UC (Vout m c) ∗ R c)
  X c := iprop(emp)
  Y c := iprop(emp)
  Z c := StableHlo.held (c : Thread nD τ) (UC \ T5) (Vin m c)
  hentry c := by
    rw [StableHlo.held_sub_split (c : Thread nD τ) T5_sub (Vin m c), held_T5, arrays_chain]
    iintro ⟨⟨⟨⟨H9, H1, Ha, Hb, Hc⟩, HZ⟩, HO⟩, -, -⟩
    ihave H9s := ((pointsTo_share (PosShare.mem_left_op_right fullShare)).1) $$ H9
    icases H9s with ⟨H9l, H9r⟩
    ihave H1s := ((pointsTo_share (PosShare.mem_left_op_right fullShare)).1) $$ H1
    icases H1s with ⟨H1l, H1r⟩
    imodintro
    isplitl [H9l H9r H1l H1r Ha Hb Hc]
    · isplitl [H9l]; · iexact H9l
      isplitl [H9r]; · iexact H9r
      isplitl [H1l]; · iexact H1l
      isplitl [H1r]; · iexact H1r
      isplitl [Ha]; · iexact Ha
      isplitl [Hb]; · iexact Hb
      iexact Hc
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = Pipeline.scopedRest spec0 c from rfl]
    iintro ⟨-, -, Hr⟩; iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [arrays_chain, arrAt_in0, arrAt_in1, arrAt_in2, arrAt_in3,
      StableHlo.held_sub_split (c : Thread nD τ) T5_sub (Vout m c), held_T5, Vout_v9, Vout_arg1, Vout_r0, Vout_r1, Vout_r2,
      StableHlo.held_congr (c : Thread nD τ) (Vout_off m c)]
    iintro ⟨⟨H9l, H9r, H1l, H1r, Ha, Hb, Hc⟩, HO, -, HZ⟩
    ihave H9 := ((pointsTo_share (PosShare.mem_left_op_right fullShare)).2) $$ [H9l H9r]
    · isplitl [H9l] <;> iassumption
    ihave H1 := ((pointsTo_share (PosShare.mem_left_op_right fullShare)).2) $$ [H1l H1r]
    · isplitl [H1l] <;> iassumption
    imodintro
    isplitr [HO]
    · isplitr [HZ]
      · isplitl [H9]; · iexact H9
        isplitl [H1]; · iexact H1
        isplitl [Ha]; · iexact Ha
        isplitl [Hb]; · iexact Hb
        iexact Hc
      · iexact HZ
    · unfold Pipeline.Dat.owesAt Pipeline.owesWithin
      icases HO with ⟨%W, -, HO⟩; iexists W; iexact HO

/-- @main as the list of the five. -/
abbrev segs : List (Pipeline.Seg (pcfgs (F := F)) adm (dats m) () defs₀ 𝒱₀ L lv) :=
  [.host (seg0 m), .region (reg0 m), .host (seg1 m), .host (seg2 m), .host (seg3 m)]

set_option backward.isDefEq.respectTransparency.types false in
/-- At the compiled mesh, for any float values, from any memory with zero counters: every weakly fair execution of
    @main terminates, and every final state has every unscoped buffer at the last valuation. -/
theorem run_main : θ_run defs (onTc (τ := τ) (main (F := F))) ⟨m, fun _ => 0, ρ⟩
    (fun r => ∀ c : Dev nD, ∀ b ∈ (UC : Finset (DevRef τ sig)), r.2.mem ((c : Thread nD τ).1, b) = Vfin m c b) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) UC (V₀ m c) ∗ R c))
    (Tₙ := fun c => StableHlo.held (c : Thread nD τ) UC (Vfin m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) UC (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (UC : Finset (DevRef τ sig)), s.mem ((c : Thread nD τ).1, b) = Vfin m c b)
    (hfin := fun c s' => by
      iintro ⟨Hh, HSI⟩
      imodintro
      unfold StableHlo.held
      iapply (pointsTo_read_all (UC : Finset (DevRef τ sig)) (fun b => ((c : Thread nD τ).1, b)) (Vfin m c) s')
      isplitl [Hh] <;> iassumption)
    (hQ := fun _ h => h)

end Cert.KernelIdeal.Hand

end
-- ==== Proof.KI.Ends.lean ====
/-
  The last valuation at the three buffers the claims read: the two arguments are as launched (no host operation and
  no write-back touches them).
-/
import proofs.«159173_j82532091560339_1_alg».proof.Proof.KI.Launch
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (m : (ℓ : Loc nD τ sig) → Buf (Elt F) ℓ)

theorem Vfin_arg0 (c : Dev nD) : Vfin m c (Proc.devRef .tc main_arg0) = m ((c : Thread nD τ).loc main_arg0) := by
  -- none of the closing host operations writes the array,
  have h1 : Vfin m c (Proc.devRef .tc main_arg0) = Vout m c (Proc.devRef .tc main_arg0) := by
    dsimp only [Vfin, hostOps1, hostOps1_1, hostOps1_2]
    after_results
  -- it is none of the three result arrays,
  have h2 : Vout m c (Proc.devRef .tc main_arg0) = Vin m c (Proc.devRef .tc main_arg0) := by
    unfold Vout
    rw [Function.update_of_ne (by decide), Function.update_of_ne (by decide), Function.update_of_ne (by decide)]
  -- and none of the ten host operations before the region writes it.
  have h3 : Vin m c (Proc.devRef .tc main_arg0) = V₀ m c (Proc.devRef .tc main_arg0) := by
    dsimp only [Vin, hostOps0]
    after_results
  exact h1.trans (h2.trans (h3.trans rfl))

theorem Vfin_arg1 (c : Dev nD) : Vfin m c (Proc.devRef .tc main_arg1) = m ((c : Thread nD τ).loc main_arg1) := by
  -- none of the closing host operations writes the array,
  have h1 : Vfin m c (Proc.devRef .tc main_arg1) = Vout m c (Proc.devRef .tc main_arg1) := by
    dsimp only [Vfin, hostOps1, hostOps1_1, hostOps1_2]
    after_results
  -- it is none of the three result arrays,
  have h2 : Vout m c (Proc.devRef .tc main_arg1) = Vin m c (Proc.devRef .tc main_arg1) := by
    unfold Vout
    rw [Function.update_of_ne (by decide), Function.update_of_ne (by decide), Function.update_of_ne (by decide)]
  -- and none of the ten host operations before the region writes it.
  have h3 : Vin m c (Proc.devRef .tc main_arg1) = V₀ m c (Proc.devRef .tc main_arg1) := by
    dsimp only [Vin, hostOps0]
    after_results
  exact h1.trans (h2.trans (h3.trans rfl))

theorem mem_UC_arg0 : (Proc.devRef .tc main_arg0 : DevRef τ sig) ∈ (UC : Finset (DevRef τ sig)) :=
  Finset.mem_filter.mpr ⟨StableHlo.devRef_mem_tcRefs _, by decide⟩
theorem mem_UC_arg1 : (Proc.devRef .tc main_arg1 : DevRef τ sig) ∈ (UC : Finset (DevRef τ sig)) :=
  Finset.mem_filter.mpr ⟨StableHlo.devRef_mem_tcRefs _, by decide⟩
theorem mem_UC_v28 : (Proc.devRef .tc main_v28 : DevRef τ sig) ∈ (UC : Finset (DevRef τ sig)) :=
  Finset.mem_filter.mpr ⟨StableHlo.devRef_mem_tcRefs _, by decide⟩

end Cert.KernelIdeal.Hand

end
-- ==== Proof.KI.Names.lean ====
/-
  Names shared by the value modules: a point's row and column tile, a tile's offset into the 2048 bodies, the four
  input blocks at a point, and the three quantities the body computes from them — the tile's pairwise sum, the row
  tile's height sum and its ground sum — as terms over the blocks.
-/
import proofs.«159173_j82532091560339_1_alg».proof.Proof.KI.Data
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx

variable {F : FTy → Type} [FloatOps F]

variable (m : (ℓ : Loc nD τ sig) → Buf (Elt F) ℓ)

/-- The row tile I and the column tile J of point t = 8·I + J. -/
def rowOf (t : Fin cfg0.N) : Fin 8 := ⟨t.val / 8, by have := t.isLt; have h : cfg0.N = 64 := N_0; omega⟩
def colOf (t : Fin cfg0.N) : Fin 8 := ⟨t.val % 8, Nat.mod_lt _ (by norm_num)⟩
/-- Body 256·I + p of the 2048. -/
def at256 (I : Fin 8) (p : Fin 256) : Fin 2048 := ⟨256 * I.val + p.val, by have := I.isLt; have := p.isLt; omega⟩
/-- The point of row tile I and column tile J. -/
def pt (I J : Fin 8) : Fin cfg0.N := ⟨8 * I.val + J.val, by have := I.isLt; have := J.isLt; have h : cfg0.N = 64 := N_0; omega⟩

/-- The two argument arrays on core `c`. -/
abbrev posOf (c : Dev nD) : Vec F S8x2048x3 .f32 := m ((c : Thread nD τ).loc main_arg0)
abbrev radOf (c : Dev nD) : Vec F S8x2048 .f32 := m ((c : Thread nD τ).loc main_arg1)

/-- The four input blocks at point `t`, at their literal types. -/
abbrev xb0 (c : Dev nD) (t : Fin cfg0.N) : Vec F S3x8x256 .f32 := iblk m c 0 t
abbrev xb1 (c : Dev nD) (t : Fin cfg0.N) : Vec F S3x8x256 .f32 := iblk m c 1 t
abbrev xb2 (c : Dev nD) (t : Fin cfg0.N) : Vec F S8x256 .f32 := iblk m c 2 t
abbrev xb3 (c : Dev nD) (t : Fin cfg0.N) : Vec F S8x256 .f32 := iblk m c 3 t

/-- Coordinate plane `k` of a stacked position block, as the body loads it. -/
def comp (x : Vec F S3x8x256 .f32) (k : Fin 3) : Vec F S1x8x256 .f32 :=
  fun y => x (fun a => match a with | ⟨0, _⟩ => k | ⟨1, _⟩ => y 1 | ⟨2, _⟩ => y 2)

/-- The tile's pairwise sum, from the two position blocks and the two radius blocks. -/
def tileTerm (x0 x1 : Vec F S3x8x256 .f32) (x2 x3 : Vec F S8x256 .f32) : F .f32 :=
  k0_pay1 x2 x3 (k0_pay7 (comp x0 0) (comp x0 1) (comp x0 2) (comp x1 0) (comp x1 1) (comp x1 2)) (k0_pay8 (F := F))
/-- The row tile's height sum, spread over a block. -/
def gravBlk (x0 : Vec F S3x8x256 .f32) : FVec F S1x1x128 .f32 := k0_pay3 (k0_pay6 (comp x0 1))
/-- The row tile's ground sum, spread over a block. -/
def groundBlk (x0 : Vec F S3x8x256 .f32) (x2 : Vec F S8x256 .f32) : FVec F S1x1x128 .f32 := k0_pay4 (k0_pay6 (comp x0 1)) x2

/-- The tile's pairwise sum at point `t`. -/
def tileAt (c : Dev nD) (t : Fin cfg0.N) : F .f32 := tileTerm (xb0 m c t) (xb1 m c t) (xb2 m c t) (xb3 m c t)

/-- The closing host operations' sum of a result array's first lane over the eight row tiles. -/
def rowSum (a : Vec F S8x1x128 .f32) : FVec F S_ .f32 :=
  Host.reduceAdd (shapeCast S8 (extractStridedSlice S8x1x1 ![0, 0, 0] a slices_S8x1x128_S8x1x1_0_0_0) shapeCasts_S8x1x1_S8)
    (constant S_ .f32 0x00000000#32) reducesTo_S8_S_d0 h_S_

end Cert.KernelIdeal.Hand

end
-- ==== Proof.KI.Final.lean ====
/-
  The three result arrays after the region: row I of each holds what its block held after the row's last point,
  t = 8·I + 7, the only point of the row that writes the block back; and the closing sum over the eight rows.
-/
import proofs.«159173_j82532091560339_1_alg».proof.Proof.KI.Names
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx
open scoped BigOperators

variable {F : FTy → Type} [FloatOps F]

variable (m : (ℓ : Loc nD τ sig) → Buf (Elt F) ℓ)

/-- The result arrays at their literal type. -/
abbrev arr4 (c : Dev nD) : Vec F S8x1x128 .f32 := (dats m 0 c).arrAt 4 cfg0.N
abbrev arr5 (c : Dev nD) : Vec F S8x1x128 .f32 := (dats m 0 c).arrAt 5 cfg0.N
abbrev arr6 (c : Dev nD) : Vec F S8x1x128 .f32 := (dats m 0 c).arrAt 6 cfg0.N

/-- `outsAt` depends on its position only. -/
private theorem outsAt_congr (c : Dev nD) {n n' : ℕ} (e : n = n') (hn : n < cfg0.N) (hn' : n' < cfg0.N) :
    outsAt m c n hn = outsAt m c n' hn' := by subst e; rfl

/-- The last point of the row of a point that writes back is the point itself. -/
private theorem pt_last (t : Fin cfg0.N) (h : t.val % 8 = 7) (I : Fin 8) (hI : I.val = t.val / 8) : (pt I 7).val = t.val := by
  show 8 * I.val + (7 : Fin 8).val = t.val
  rw [hI, show ((7 : Fin 8).val) = 7 from rfl]; omega

/-- The collision window's block index map, decided over the grid: row t / 8, the other two axes whole. -/
private theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, _)

/-- The collision result array: row I holds the collision block after the row's last point. -/
def G4 (c : Dev nD) : Vec F S8x1x128 .f32 := fun i =>
  (outsAt m c (pt (i 0) 7).val (pt (i 0) 7).isLt).1 (ix3 (0 : Fin 1) (0 : Fin 1) (i 2))

/-- What a writing point (the last of its row) writes back is its row of `G4`: the collision block after that very point. -/
theorem flushed4_eq (c : Dev nD) (t : Fin cfg0.N) (hf : (cfg0.win 4).flush t = true) :
    (dats m 0 c).flushed 4 t = ((cfg0.win 4).blk t).view.read (Elt F) (G4 m c) := by
  have h7 : t.val % 8 = 7 := (flush0_4 t).mp hf
  obtain ⟨e0, e1, e2⟩ := idx4 t
  show (cfg0.win 4).cut (grid0.coords t) ((dats m 0 c).after 4 t) = _
  rw [after_4]
  funext j
  show (outsAt m c t.val t.isLt).1 _ = G4 m c (((cfg0.win 4).blk t).view.emb j)
  have hj0 : (j 0).val < 1 := (j 0).isLt
  have hj1 : (j 1).val < 1 := (j 1).isLt
  have k0 : ((((cfg0.win 4).blk t).view.emb j) 0).val = t.val / 8 := by
    show win0_4.index t (0 : Fin 3) * 1 + 1 * (j 0).val = _
    omega
  have k2 : ((((cfg0.win 4).blk t).view.emb j) 2).val = (j 2).val := by
    show win0_4.index t (2 : Fin 3) * 128 + 1 * (j 2).val = _
    omega
  show _ = (outsAt m c (pt ((((cfg0.win 4).blk t).view.emb j) 0) 7).val (pt ((((cfg0.win 4).blk t).view.emb j) 0) 7).isLt).1
    (ix3 (0 : Fin 1) (0 : Fin 1) ((((cfg0.win 4).blk t).view.emb j) 2))
  rw [outsAt_congr m c (pt_last t h7 _ k0) (pt _ 7).isLt t.isLt]
  refine congrArg (outsAt m c t.val t.isLt).1 ?_
  funext a; apply Fin.ext
  match a with
  | ⟨0, _⟩ => show (j 0).val = 0; omega
  | ⟨1, _⟩ => show (j 1).val = 0; omega
  | ⟨2, _⟩ => exact k2.symm

/-- An index of the collision array is in point `t`'s block iff each coordinate is in the block's range on its axis. -/
private theorem mem_blk4 (t : Fin cfg0.N) (i : S8x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v10_0).slice (win0_4.rect t)).set ↔ _
  rw [View.set_slice_whole, Rect.mem_set_unit]
  exact Iff.rfl

/-- Row I of the array is covered by the block of the row's last point, which writes back; so the array ends at `G4`. -/
theorem final4 (c : Dev nD) : (dats m 0 c).arrAt 4 cfg0.N = G4 m c :=
  (dats m 0 c).arrAt_eq_of_cover 4 (G4 m c) (flushed4_eq m c) fun i => by
    have hi0 : (i 0).val < 8 := (i 0).isLt
    have hi1 : (i 1).val < 1 := (i 1).isLt
    have hi2 : (i 2).val < 128 := (i 2).isLt
    have ev : (pt (i 0) 7).val = 8 * (i 0).val + 7 := rfl
    refine ⟨pt (i 0) 7, (flush0_4 _).mpr (by rw [ev]; omega), ?_⟩
    obtain ⟨e0, e1, e2⟩ := idx4 (pt (i 0) 7)
    rw [mem_blk4]
    intro a
    match a with
    | ⟨0, _⟩ =>
      show win0_4.index (pt (i 0) 7) (0 : Fin 3) * 1 ≤ (i 0).val ∧ (i 0).val < win0_4.index (pt (i 0) 7) (0 : Fin 3) * 1 + 1
      omega
    | ⟨1, _⟩ =>
      show win0_4.index (pt (i 0) 7) (1 : Fin 3) * 1 ≤ (i 1).val ∧ (i 1).val < win0_4.index (pt (i 0) 7) (1 : Fin 3) * 1 + 1
      omega
    | ⟨2, _⟩ =>
      show win0_4.index (pt (i 0) 7) (2 : Fin 3) * 128 ≤ (i 2).val ∧ (i 2).val < win0_4.index (pt (i 0) 7) (2 : Fin 3) * 128 + 128
      omega

/-- Lane l of row I of the collision array after the region. -/
theorem arr4_apply (c : Dev nD) (I : Fin 8) (l : Fin 128) :
    arr4 m c (ix3 I (0 : Fin 1) l) = (outsAt m c (pt I 7).val (pt I 7).isLt).1 (ix3 (0 : Fin 1) (0 : Fin 1) l) := by
  show (dats m 0 c).arrAt 4 cfg0.N (ix3 I (0 : Fin 1) l) = _
  rw [final4]
  rfl

/-- The gravity window's block index map, decided over the grid: row t / 8, the other two axes whole. -/
private theorem idx5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-- The gravity result array: row I holds the gravity block after the row's last point. -/
def G5 (c : Dev nD) : Vec F S8x1x128 .f32 := fun i =>
  (outsAt m c (pt (i 0) 7).val (pt (i 0) 7).isLt).2.1 (ix3 (0 : Fin 1) (0 : Fin 1) (i 2))

/-- What a writing point (the last of its row) writes back is its row of `G5`: the gravity block after that very point. -/
theorem flushed5_eq (c : Dev nD) (t : Fin cfg0.N) (hf : (cfg0.win 5).flush t = true) :
    (dats m 0 c).flushed 5 t = ((cfg0.win 5).blk t).view.read (Elt F) (G5 m c) := by
  have h7 : t.val % 8 = 7 := (flush0_5 t).mp hf
  obtain ⟨e0, e1, e2⟩ := idx5 t
  show (cfg0.win 5).cut (grid0.coords t) ((dats m 0 c).after 5 t) = _
  rw [after_5]
  funext j
  show (outsAt m c t.val t.isLt).2.1 _ = G5 m c (((cfg0.win 5).blk t).view.emb j)
  have hj0 : (j 0).val < 1 := (j 0).isLt
  have hj1 : (j 1).val < 1 := (j 1).isLt
  have k0 : ((((cfg0.win 5).blk t).view.emb j) 0).val = t.val / 8 := by
    show win0_5.index t (0 : Fin 3) * 1 + 1 * (j 0).val = _
    omega
  have k2 : ((((cfg0.win 5).blk t).view.emb j) 2).val = (j 2).val := by
    show win0_5.index t (2 : Fin 3) * 128 + 1 * (j 2).val = _
    omega
  show _ = (outsAt m c (pt ((((cfg0.win 5).blk t).view.emb j) 0) 7).val (pt ((((cfg0.win 5).blk t).view.emb j) 0) 7).isLt).2.1
    (ix3 (0 : Fin 1) (0 : Fin 1) ((((cfg0.win 5).blk t).view.emb j) 2))
  rw [outsAt_congr m c (pt_last t h7 _ k0) (pt _ 7).isLt t.isLt]
  refine congrArg (outsAt m c t.val t.isLt).2.1 ?_
  funext a; apply Fin.ext
  match a with
  | ⟨0, _⟩ => show (j 0).val = 0; omega
  | ⟨1, _⟩ => show (j 1).val = 0; omega
  | ⟨2, _⟩ => exact k2.symm

/-- An index of the gravity array is in point `t`'s block iff each coordinate is in the block's range on its axis. -/
private theorem mem_blk5 (t : Fin cfg0.N) (i : S8x1x128.Idx) :
    i ∈ ((cfg0.win 5).blk t).view.set ↔ ∀ a : Fin 3, win0_5.index t a * S1x1x128.size a ≤ (i a).val
      ∧ (i a).val < win0_5.index t a * S1x1x128.size a + S1x1x128.size a := by
  show i ∈ ((View.whole main_v10_1).slice (win0_5.rect t)).set ↔ _
  rw [View.set_slice_whole, Rect.mem_set_unit]
  exact Iff.rfl

/-- Row I of the array is covered by the block of the row's last point, which writes back; so the array ends at `G5`. -/
theorem final5 (c : Dev nD) : (dats m 0 c).arrAt 5 cfg0.N = G5 m c :=
  (dats m 0 c).arrAt_eq_of_cover 5 (G5 m c) (flushed5_eq m c) fun i => by
    have hi0 : (i 0).val < 8 := (i 0).isLt
    have hi1 : (i 1).val < 1 := (i 1).isLt
    have hi2 : (i 2).val < 128 := (i 2).isLt
    have ev : (pt (i 0) 7).val = 8 * (i 0).val + 7 := rfl
    refine ⟨pt (i 0) 7, (flush0_5 _).mpr (by rw [ev]; omega), ?_⟩
    obtain ⟨e0, e1, e2⟩ := idx5 (pt (i 0) 7)
    rw [mem_blk5]
    intro a
    match a with
    | ⟨0, _⟩ =>
      show win0_5.index (pt (i 0) 7) (0 : Fin 3) * 1 ≤ (i 0).val ∧ (i 0).val < win0_5.index (pt (i 0) 7) (0 : Fin 3) * 1 + 1
      omega
    | ⟨1, _⟩ =>
      show win0_5.index (pt (i 0) 7) (1 : Fin 3) * 1 ≤ (i 1).val ∧ (i 1).val < win0_5.index (pt (i 0) 7) (1 : Fin 3) * 1 + 1
      omega
    | ⟨2, _⟩ =>
      show win0_5.index (pt (i 0) 7) (2 : Fin 3) * 128 ≤ (i 2).val ∧ (i 2).val < win0_5.index (pt (i 0) 7) (2 : Fin 3) * 128 + 128
      omega

/-- Lane l of row I of the gravity array after the region. -/
theorem arr5_apply (c : Dev nD) (I : Fin 8) (l : Fin 128) :
    arr5 m c (ix3 I (0 : Fin 1) l) = (outsAt m c (pt I 7).val (pt I 7).isLt).2.1 (ix3 (0 : Fin 1) (0 : Fin 1) l) := by
  show (dats m 0 c).arrAt 5 cfg0.N (ix3 I (0 : Fin 1) l) = _
  rw [final5]
  rfl

/-- The ground window's block index map, decided over the grid: row t / 8, the other two axes whole. -/
private theorem idx6 : ∀ t : Fin cfg0.N, win0_6.index t (0 : Fin 3) = t.val / 8 ∧ win0_6.index t (1 : Fin 3) = 0 ∧ win0_6.index t (2 : Fin 3) = 0 :=
  (by decide +kernel : ∀ t : Fin grid0.N, _)

/-- The ground result array: row I holds the ground block after the row's last point. -/
def G6 (c : Dev nD) : Vec F S8x1x128 .f32 := fun i =>
  (outsAt m c (pt (i 0) 7).val (pt (i 0) 7).isLt).2.2 (ix3 (0 : Fin 1) (0 : Fin 1) (i 2))

/-- What a writing point (the last of its row) writes back is its row of `G6`: the ground block after that very point. -/
theorem flushed6_eq (c : Dev nD) (t : Fin cfg0.N) (hf : (cfg0.win 6).flush t = true) :
    (dats m 0 c).flushed 6 t = ((cfg0.win 6).blk t).view.read (Elt F) (G6 m c) := by
  have h7 : t.val % 8 = 7 := (flush0_6 t).mp hf
  obtain ⟨e0, e1, e2⟩ := idx6 t
  show (cfg0.win 6).cut (grid0.coords t) ((dats m 0 c).after 6 t) = _
  rw [after_6]
  funext j
  show (outsAt m c t.val t.isLt).2.2 _ = G6 m c (((cfg0.win 6).blk t).view.emb j)
  have hj0 : (j 0).val < 1 := (j 0).isLt
  have hj1 : (j 1).val < 1 := (j 1).isLt
  have k0 : ((((cfg0.win 6).blk t).view.emb j) 0).val = t.val / 8 := by
    show win0_6.index t (0 : Fin 3) * 1 + 1 * (j 0).val = _
    omega
  have k2 : ((((cfg0.win 6).blk t).view.emb j) 2).val = (j 2).val := by
    show win0_6.index t (2 : Fin 3) * 128 + 1 * (j 2).val = _
    omega
  show _ = (outsAt m c (pt ((((cfg0.win 6).blk t).view.emb j) 0) 7).val (pt ((((cfg0.win 6).blk t).view.emb j) 0) 7).isLt).2.2
    (ix3 (0 : Fin 1) (0 : Fin 1) ((((cfg0.win 6).blk t).view.emb j) 2))
  rw [outsAt_congr m c (pt_last t h7 _ k0) (pt _ 7).isLt t.isLt]
  refine congrArg (outsAt m c t.val t.isLt).2.2 ?_
  funext a; apply Fin.ext
  match a with
  | ⟨0, _⟩ => show (j 0).val = 0; omega
  | ⟨1, _⟩ => show (j 1).val = 0; omega
  | ⟨2, _⟩ => exact k2.symm

/-- An index of the ground array is in point `t`'s block iff each coordinate is in the block's range on its axis. -/
private theorem mem_blk6 (t : Fin cfg0.N) (i : S8x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v10_2).slice (win0_6.rect t)).set ↔ _
  rw [View.set_slice_whole, Rect.mem_set_unit]
  exact Iff.rfl

/-- Row I of the array is covered by the block of the row's last point, which writes back; so the array ends at `G6`. -/
theorem final6 (c : Dev nD) : (dats m 0 c).arrAt 6 cfg0.N = G6 m c :=
  (dats m 0 c).arrAt_eq_of_cover 6 (G6 m c) (flushed6_eq m c) fun i => by
    have hi0 : (i 0).val < 8 := (i 0).isLt
    have hi1 : (i 1).val < 1 := (i 1).isLt
    have hi2 : (i 2).val < 128 := (i 2).isLt
    have ev : (pt (i 0) 7).val = 8 * (i 0).val + 7 := rfl
    refine ⟨pt (i 0) 7, (flush0_6 _).mpr (by rw [ev]; omega), ?_⟩
    obtain ⟨e0, e1, e2⟩ := idx6 (pt (i 0) 7)
    rw [mem_blk6]
    intro a
    match a with
    | ⟨0, _⟩ =>
      show win0_6.index (pt (i 0) 7) (0 : Fin 3) * 1 ≤ (i 0).val ∧ (i 0).val < win0_6.index (pt (i 0) 7) (0 : Fin 3) * 1 + 1
      omega
    | ⟨1, _⟩ =>
      show win0_6.index (pt (i 0) 7) (1 : Fin 3) * 1 ≤ (i 1).val ∧ (i 1).val < win0_6.index (pt (i 0) 7) (1 : Fin 3) * 1 + 1
      omega
    | ⟨2, _⟩ =>
      show win0_6.index (pt (i 0) 7) (2 : Fin 3) * 128 ≤ (i 2).val ∧ (i 2).val < win0_6.index (pt (i 0) 7) (2 : Fin 3) * 128 + 128
      omega

/-- Lane l of row I of the ground array after the region. -/
theorem arr6_apply (c : Dev nD) (I : Fin 8) (l : Fin 128) :
    arr6 m c (ix3 I (0 : Fin 1) l) = (outsAt m c (pt I 7).val (pt I 7).isLt).2.2 (ix3 (0 : Fin 1) (0 : Fin 1) l) := by
  show (dats m 0 c).arrAt 6 cfg0.N (ix3 I (0 : Fin 1) l) = _
  rw [final6]
  rfl

/-- Over the extended reals the closing sum of a result array is the sum of its rows' first lanes. -/
theorem rowSum_ideal (a : Vec Ideal S8x1x128 .f32) :
    rowSum (F := Ideal) a = fun _ => ∑ I : Fin 8, a (ix3 I (0 : Fin 1) (0 : Fin 128)) := by
  funext i
  unfold rowSum
  generalize hy : shapeCast S8 (extractStridedSlice S8x1x1 ![0, 0, 0] a slices_S8x1x128_S8x1x1_0_0_0) shapeCasts_S8x1x1_S8 = y
  simp only [Host.reduceAdd, Ideal.hostReduceAdd_def]
  rw [Ideal.hostReduceAdd_total reducesTo_S8_S_d0 (fun b => b.elim0) y _ i]
  subst hy
  show Ideal.ofBits .f32 0x00000000#32 + _ = _
  rw [Ideal.ofBits_zero_f32, zero_add]
  -- an index of the eight rows is its one coordinate
  refine Fintype.sum_equiv ⟨fun j => j 0, fun I => ix1 I, fun j => (eq_ix1 j).symm, fun _ => rfl⟩ _ _ fun j => ?_
  have hj : (j 0).val < 8 := (j 0).isLt
  refine (shapeCast_apply _ shapeCasts_S8x1x1_S8 j (ix3 (j 0) (0 : Fin 1) (0 : Fin 1) : S8x1x1.Idx) ?_).trans ?_
  · rw [Shape.rowMajor_val_three, Shape.rowMajor_val_one]
    show ((j 0).val * 1 + 0) * 1 + 0 = (j 0).val
    omega
  · exact extractStridedSlice_apply ![0, 0, 0] a slices_S8x1x128_S8x1x1_0_0_0 _ (ix3 (j 0) (0 : Fin 1) (0 : Fin 128) : S8x1x128.Idx)
      fun b => match b with
        | ⟨0, _⟩ => by show (j 0).val = 0 + (j 0).val; omega
        | ⟨1, _⟩ => by show 0 = 0 + 0; omega
        | ⟨2, _⟩ => by show 0 = 0 + 0; omega

end Cert.KernelIdeal.Hand

end
-- ==== Proof.Spec.lean ====
/-
  The loss as one function of the two argument arrays, over the extended reals.

  For positions p[b, n, d] (8 × 2048 × 3) and radii r[b, n] (8 × 2048):
    * the height sum          G  = Σ_b Σ_n p[b, n, 1];
    * the ground sum          Gr = Σ_b Σ_n max ((r[b, n] − p[b, n, 1]) + 0) 0;
    * the squared distance    s[b, i, j] = (Δx·Δx + Δy·Δy) + Δz·Δz,  Δ = p[b, i, ·] − p[b, j, ·];
    * the guarded distance    dist s = √(if s = 0 then 1 else s) · (if 0 < s then 1 else 0);
    * the pairwise sum        Co = Σ_b Σ_i Σ_j ((r[b, i] + r[b, j]) − dist s[b, i, j]);
  and the result is the closing host arithmetic `tailV` of the three sums, the same operations in both programs:
  0.2 · (G / 16384) + 0.2 · (Gr / 16384) + 0.2 · softplus (Co / 2^25), softplus in the numerically guarded form
  max x 0 + log1p (exp (−|x − 0|)).
-/
import Idealize.ShloMosaic.PureOps.Ideal
import Idealize.ShloMosaic.Lib.ValueIdx

noncomputable section

open scoped BigOperators

namespace Cert.Spec

open Idealize.ShloMosaic Idealize.ShloMosaic.ValueIdx

abbrev SPos : Shape := ⟨3, ![8, 2048, 3]⟩
abbrev SRad : Shape := ⟨2, ![8, 2048]⟩
abbrev S0 : Shape := ⟨0, ![]⟩

variable (pos : SPos.Idx → EReal) (rad : SRad.Idx → EReal)

/-- Coordinate `d` of body `n` in batch `b`. -/
def px (b : Fin 8) (n : Fin 2048) (d : Fin 3) : EReal := pos (ix3 b n d)

/-- The squared distance of bodies `i` and `j` of batch `b`, summed in the order x, y, z. -/
def sq (b : Fin 8) (i j : Fin 2048) : EReal :=
  ((px pos b i 0 - px pos b j 0) * (px pos b i 0 - px pos b j 0) + (px pos b i 1 - px pos b j 1) * (px pos b i 1 - px pos b j 1))
    + (px pos b i 2 - px pos b j 2) * (px pos b i 2 - px pos b j 2)

/-- The guarded square root: the root of `s` (of `1` where `s = 0`), kept only where `s` is positive. -/
def dist (s : EReal) : EReal := Ideal.sqrt (if s = 0 then 1 else s) * (if 0 < s then (1 : EReal) else 0)

/-- One pair's contribution. -/
def term (b : Fin 8) (i j : Fin 2048) : EReal := (rad (ix2 b i) + rad (ix2 b j)) - dist (sq pos b i j)

/-- The three sums. -/
def gravSum : EReal := ∑ b : Fin 8, ∑ n : Fin 2048, px pos b n 1
def groundSum : EReal := ∑ b : Fin 8, ∑ n : Fin 2048, max ((rad (ix2 b n) - px pos b n 1) + 0) 0
def collSum : EReal := ∑ b : Fin 8, ∑ i : Fin 2048, ∑ j : Fin 2048, term pos rad b i j

/-- The guarded softplus of a scalar, as the host computes it. -/
def softplusV (x : FVec Ideal S0 .f32) : FVec Ideal S0 .f32 :=
  let c0 : FVec Ideal S0 .f32 := constant (F := Ideal) S0 .f32 0x00000000#32
  select (cmpf .une (subf x c0) (subf x c0)) (addf x c0)
    (addf (maximumf x c0) (Host.log1p (F := Ideal) (Host.exp (F := Ideal) (Host.negf (F := Ideal) (Host.absf (F := Ideal) (subf x c0))))))

/-- The closing host arithmetic, on the three sums as scalars. -/
def tailV (g gr co : FVec Ideal S0 .f32) : FVec Ideal S0 .f32 :=
  let w : FVec Ideal S0 .f32 := constant (F := Ideal) S0 .f32 0x3E4CCCCD#32
  let n1 : FVec Ideal S0 .f32 := constant (F := Ideal) S0 .f32 0x46800000#32
  let n2 : FVec Ideal S0 .f32 := constant (F := Ideal) S0 .f32 0x4C000000#32
  addf (addf (mulf w (Host.divf (F := Ideal) g n1)) (mulf w (Host.divf (F := Ideal) gr n1)))
    (mulf w (softplusV (Host.divf (F := Ideal) co n2)))

/-- The loss. -/
def loss : FVec Ideal S0 .f32 := tailV (fun _ => gravSum pos) (fun _ => groundSum pos rad) (fun _ => collSum pos rad)

end Cert.Spec

end
-- ==== Proof.KI.EndsV.lean ====
/-
  At the extended reals the result buffer holds, at the end, the closing host arithmetic applied to the three result
  arrays' row sums.
-/
import proofs.«159173_j82532091560339_1_alg».proof.Proof.KI.Ends
import proofs.«159173_j82532091560339_1_alg».proof.Proof.KI.Final
import proofs.«159173_j82532091560339_1_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

theorem Vfin_v28 (mI : (ℓ : Loc nD τ sig) → Buf (Elt Ideal) ℓ) (c : Dev nD) :
    Vfin mI c (Proc.devRef .tc main_v28)
      = Cert.Spec.tailV (rowSum (F := Ideal) (arr5 mI c)) (rowSum (F := Ideal) (arr6 mI c)) (rowSum (F := Ideal) (arr4 mI c)) := by
  -- the closing host operations one by one, over the valuation at the region's exit,
  dsimp only [Vfin, hostOps1, hostOps1_1, hostOps1_2]
  after_results_simp
  -- whose three result arrays are what the write-backs left;
  rw [Vout_r0, Vout_r1, Vout_r2]
  -- what is left is the closing arithmetic's own definition.
  rfl

end Cert.KernelIdeal.Hand

end
-- ==== Proof.KI.Blocks.lean ====
/-
  What each control case leaves in the output blocks, as terms over the point's input blocks.
-/
import proofs.«159173_j82532091560339_1_alg».proof.Proof.KI.Names
import Idealize.ShloMosaic.Lib.Pipeline.FrameBody
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx

variable {F : FTy → Type} [FloatOps F]

/-- The zero offsets of a rank-three and of a rank-two rectangle, as constant functions. -/
private theorem hz3 : (![0, 0, 0] : Fin 3 → Nat) = fun _ => 0 := funext fun a => by fin_cases a <;> rfl
private theorem hz2 : (![0, 0] : Fin 2 → Nat) = fun _ => 0 := funext fun a => by fin_cases a <;> rfl

/-! ## A load of one coordinate plane

The body reads plane `k` of a stacked position block through the unit-stride rectangle at offset (k, 0, 0) of
sizes (1, 8, 256): index (a, r, p) of the rectangle, with a = 0, is index (k + 1·a, 0 + 1·r, 0 + 1·p) = (k, r, p) of
the block. -/

private theorem ld_plane0 (x : Vec F S3x8x256 .f32) :
    View.ld x (Rect.unit (s := S3x8x256) ![0, 0, 0] ![1, 8, 256] inb_S3x8x256_S1x8x256_0_0_0) = comp x 0 := by
  funext y
  have h0 : (y 0).val < 1 := (y 0).isLt
  refine congrArg x (funext fun a => ?_)
  match a with
  | ⟨0, _⟩ => exact Fin.ext (by show 0 + 1 * (y 0).val = 0; omega)
  | ⟨1, _⟩ => exact Fin.ext (by show 0 + 1 * (y 1).val = (y 1).val; omega)
  | ⟨2, _⟩ => exact Fin.ext (by show 0 + 1 * (y 2).val = (y 2).val; omega)

private theorem ld_plane1 (x : Vec F S3x8x256 .f32) :
    View.ld x (Rect.unit (s := S3x8x256) ![1, 0, 0] ![1, 8, 256] inb_S3x8x256_S1x8x256_1_0_0) = comp x 1 := by
  funext y
  have h0 : (y 0).val < 1 := (y 0).isLt
  refine congrArg x (funext fun a => ?_)
  match a with
  | ⟨0, _⟩ => exact Fin.ext (by show 1 + 1 * (y 0).val = 1; omega)
  | ⟨1, _⟩ => exact Fin.ext (by show 0 + 1 * (y 1).val = (y 1).val; omega)
  | ⟨2, _⟩ => exact Fin.ext (by show 0 + 1 * (y 2).val = (y 2).val; omega)

private theorem ld_plane2 (x : Vec F S3x8x256 .f32) :
    View.ld x (Rect.unit (s := S3x8x256) ![2, 0, 0] ![1, 8, 256] inb_S3x8x256_S1x8x256_2_0_0) = comp x 2 := by
  funext y
  have h0 : (y 0).val < 1 := (y 0).isLt
  refine congrArg x (funext fun a => ?_)
  match a with
  | ⟨0, _⟩ => exact Fin.ext (by show 2 + 1 * (y 0).val = 2; omega)
  | ⟨1, _⟩ => exact Fin.ext (by show 0 + 1 * (y 1).val = (y 1).val; omega)
  | ⟨2, _⟩ => exact Fin.ext (by show 0 + 1 * (y 2).val = (y 2).val; omega)

/-! ## The blocks

Each output buffer takes ONE store in a run, through the rectangle that is the whole block: what the block then
holds is that store's payload. The payload's loads read the whole radius blocks, the three planes of each position
block, and (at J ≠ 0) the whole collision block as the point before left it. -/

/-- At J = 0 the collision block is the tile's pairwise sum on every lane, -/
theorem outA_1 (c : Dev nD) (t : Fin cfg0.N) (h : t.val % 8 = 0) (x0 x1 : Vec F S3x8x256 .f32) (x2 x3 : Vec F S8x256 .f32) :
    (outA (F := F) c t h x0 x1 x2 x3).1 = broadcast S1x1x128 (tileTerm x0 x1 x2 x3) := by
  unfold outA; dsimp only; unfold runA; dsimp only; sl_unfold_words
  rw [View.read_writes_junk_eq_canon, View.canon_unit_zero (S := S1x1x128) hz3]
  simp only [View.readAt_eq_ld, Memref.IsWhole.read_unread, View.ld_unit_zero (S := S8x256) hz2,
    ld_plane0, ld_plane1, ld_plane2]
  rfl

/-- the gravity block the row tile's height sum, -/
theorem outA_2 (c : Dev nD) (t : Fin cfg0.N) (h : t.val % 8 = 0) (x0 x1 : Vec F S3x8x256 .f32) (x2 x3 : Vec F S8x256 .f32) :
    (outA (F := F) c t h x0 x1 x2 x3).2.1 = gravBlk x0 := by
  unfold outA; dsimp only; unfold runA; dsimp only; sl_unfold_words
  rw [View.read_writes_junk_eq_canon, View.canon_unit_zero (S := S1x1x128) hz3]
  simp only [View.readAt_eq_ld, Memref.IsWhole.read_unread, View.ld_unit_zero (S := S8x256) hz2,
    ld_plane0, ld_plane1, ld_plane2]
  rfl

/-- and the ground block its ground sum. -/
theorem outA_3 (c : Dev nD) (t : Fin cfg0.N) (h : t.val % 8 = 0) (x0 x1 : Vec F S3x8x256 .f32) (x2 x3 : Vec F S8x256 .f32) :
    (outA (F := F) c t h x0 x1 x2 x3).2.2 = groundBlk x0 x2 := by
  unfold outA; dsimp only; unfold runA; dsimp only; sl_unfold_words
  rw [View.read_writes_junk_eq_canon, View.canon_unit_zero (S := S1x1x128) hz3]
  simp only [View.readAt_eq_ld, Memref.IsWhole.read_unread, View.ld_unit_zero (S := S8x256) hz2,
    ld_plane0, ld_plane1, ld_plane2]
  rfl

/-- At J ≠ 0 the collision block is what it held plus the tile's pairwise sum on every lane. -/
theorem outB_eq (c : Dev nD) (t : Fin cfg0.N) (h : ¬ t.val % 8 = 0) (x0 x1 : Vec F S3x8x256 .f32) (x2 x3 : Vec F S8x256 .f32)
    (xo : Vec F S1x1x128 .f32) :
    outB (F := F) c t h x0 x1 x2 x3 xo
      = addf (shapeCast S1x1x128 xo shapeCasts_S1x1x128_S1x1x128) (broadcast S1x1x128 (tileTerm x0 x1 x2 x3)) := by
  unfold outB; unfold runB; dsimp only; sl_unfold_words
  rw [View.read_writes_junk_eq_canon, View.canon_unit_zero (S := S1x1x128) hz3]
  simp only [View.readAt_eq_ld, Memref.IsWhole.read_unread, View.ld_unit_zero (S := S8x256) hz2,
    View.ld_unit_zero (S := S1x1x128) hz3, ld_plane0, ld_plane1, ld_plane2]
  rfl

end Cert.KernelIdeal.Hand

end
-- ==== Proof.KI.Tile.lean ====
/-
  The three block quantities over the extended reals: the tile's pairwise sum as a triple sum of the pairs'
  contributions, the height sum and the ground sum as double sums.
-/
import proofs.«159173_j82532091560339_1_alg».proof.Proof.KI.Names
import proofs.«159173_j82532091560339_1_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx
open scoped BigOperators

/-- The squared distance of body `p` of the first block and body `q` of the second, in batch `b`. -/
def blkSq (x0 x1 : Vec Ideal S3x8x256 .f32) (b : Fin 8) (p q : Fin 256) : EReal :=
  ((x0 (ix3 (0 : Fin 3) b p) - x1 (ix3 (0 : Fin 3) b q)) * (x0 (ix3 (0 : Fin 3) b p) - x1 (ix3 (0 : Fin 3) b q))
      + (x0 (ix3 (1 : Fin 3) b p) - x1 (ix3 (1 : Fin 3) b q)) * (x0 (ix3 (1 : Fin 3) b p) - x1 (ix3 (1 : Fin 3) b q)))
    + (x0 (ix3 (2 : Fin 3) b p) - x1 (ix3 (2 : Fin 3) b q)) * (x0 (ix3 (2 : Fin 3) b p) - x1 (ix3 (2 : Fin 3) b q))

/-! ## Reading the layout operations at coordinates -/

/-- Plane `k` of a stacked block, at `(u, b, p)`, is the block at `(k, b, p)`. -/
private theorem comp_apply (x : Vec Ideal S3x8x256 .f32) (k : Fin 3) (u : Fin 1) (b : Fin 8) (p : Fin 256) :
    comp (F := Ideal) x k (ix3 u b p) = x (ix3 k b p) := by
  unfold comp
  refine congrArg x (funext fun a => ?_)
  match a with
  | ⟨0, _⟩ => rfl
  | ⟨1, _⟩ => rfl
  | ⟨2, _⟩ => rfl

/-- An `[a, b]` array viewed `[a, b, 1]`: entry `(i, j, u)` is entry `(i, j)` (row-major position
    `(i·b + j)·1 + 0`). -/
private theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, c]` array viewed `[a, 1, c]`: entry `(i, u, k)` is entry `(i, k)` (row-major position
    `(i·1 + 0)·c + k`). -/
private theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, b, 1]` array spread along its last axis over `[a, b, c]`: entry `(i, j, k)` is entry `(i, j, 0)`. -/
private theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array spread along its middle axis over `[a, b, c]`: entry `(i, j, k)` is entry `(i, 0, k)`. -/
private theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A column of per-body values spread over the pairs: at `(b, p, q)` it is the value of body `p`. -/
private theorem spreadRow_apply {α : Type} (v : S8x256.Idx → α) (h1 : S8x256.ShapeCasts S8x256x1)
    (h2 : S8x256x1.Broadcasts S8x256x256) (b : Fin 8) (p q : Fin 256) :
    broadcastTo S8x256x256 (shapeCast S8x256x1 v h1) h2 (ix3 b p q) = v (ix2 b p) :=
  (broadcastTo_ab1_abc_apply _ h2 b p q).trans (shapeCast_ab_ab1_apply v h1 b p 0)

/-- A row of per-body values spread over the pairs: at `(b, p, q)` it is the value of body `q`. -/
private theorem spreadCol_apply {α : Type} (v : S8x256.Idx → α) (h1 : S8x256.ShapeCasts S8x1x256)
    (h2 : S8x1x256.Broadcasts S8x256x256) (b : Fin 8) (p q : Fin 256) :
    broadcastTo S8x256x256 (shapeCast S8x1x256 v h1) h2 (ix3 b p q) = v (ix2 b q) :=
  (broadcastTo_a1c_abc_apply _ h2 b p q).trans (shapeCast_ac_a1c_apply v h1 b 0 q)

/-- Plane `k` of a stacked block viewed `[8, 256]`: at `(b, p)` it is the block at `(k, b, p)`. -/
private theorem plane_apply (x : Vec Ideal S3x8x256 .f32) (k : Fin 3) (h : S1x8x256.ShapeCasts S8x256) (b : Fin 8) (p : Fin 256) :
    (shapeCast S8x256 (comp (F := Ideal) x k) h : FVec Ideal S8x256 .f32) (ix2 b p) = x (ix3 k b p) :=
  (shapeCast_1ab_ab_apply _ h b p).trans (comp_apply x k 0 b p)

/-! ## The lane sums at coordinates -/

/-- The sum over the last axis of an `[8, 256, 256]` vector, at `(b, p)`: the sum over `q` of its entries `(b, p, q)`. -/
private theorem sumLast_apply (v : FVec Ideal S8x256x256 .f32) (h : S8x256x256.Reduces [2] S8x256) (hφ : FKind.Formats .f32)
    (hacc : (0x00000000#32 : BitVec 32) = FKind.add.neutral .f32 hφ) (b : Fin 8) (p : Fin 256) :
    multiReduction (F := Ideal) .add [2] S8x256 v 0x00000000#32 h hφ hacc (ix2 b p) = ∑ q : Fin 256, v (ix3 b p q) := by
  refine (Ideal.multiReduction_add_single v _ h hφ hacc (ix2 b p)).trans ?_
  refine Finset.sum_congr rfl fun q _ => congrArg v (funext fun c => ?_)
  match c with
  | ⟨0, _⟩ => rfl
  | ⟨1, _⟩ => rfl
  | ⟨2, _⟩ => rfl

/-- The sum over the bodies of an `[8, 256]` vector, at batch `b`: the sum over `p` of its entries `(b, p)`. -/
private theorem sumBodies_apply (v : FVec Ideal S8x256 .f32) (h : S8x256.Reduces [1] S8) (hφ : FKind.Formats .f32)
    (hacc : (0x00000000#32 : BitVec 32) = FKind.add.neutral .f32 hφ) (b : Fin 8) :
    multiReduction (F := Ideal) .add [1] S8 v 0x00000000#32 h hφ hacc (ix1 b) = ∑ p : Fin 256, v (ix2 b p) := by
  refine (Ideal.multiReduction_add_single v _ h hφ hacc (ix1 b)).trans ?_
  refine Finset.sum_congr rfl fun p _ => congrArg v (funext fun c => ?_)
  match c with
  | ⟨0, _⟩ => rfl
  | ⟨1, _⟩ => rfl

/-- The sum over the batches of a `[1, 8]` vector, at its one row: the sum over `b` of its entries `(0, b)`. -/
private theorem sumBatches_apply (v : FVec Ideal S1x8 .f32) (h : S1x8.Reduces [1] S1) (hφ : FKind.Formats .f32)
    (hacc : (0x00000000#32 : BitVec 32) = FKind.add.neutral .f32 hφ) (u : Fin 1) :
    multiReduction (F := Ideal) .add [1] S1 v 0x00000000#32 h hφ hacc (ix1 u) = ∑ b : Fin 8, v (ix2 u b) := by
  refine (Ideal.multiReduction_add_single v _ h hφ hacc (ix1 u)).trans ?_
  refine Finset.sum_congr rfl fun b _ => congrArg v (funext fun c => ?_)
  match c with
  | ⟨0, _⟩ => rfl
  | ⟨1, _⟩ => rfl

/-- The total of an `[8, 256]` vector as the body takes it — over the bodies, then over the batches through a
    `[1, 8]` view, then the one entry of the `[1, 1]` result — is the double sum over batches and bodies. -/
private theorem total_apply (v : FVec Ideal S8x256 .f32) (h1 : S8x256.Reduces [1] S8) (hφ : FKind.Formats .f32)
    (hacc1 : (0x00000000#32 : BitVec 32) = FKind.add.neutral .f32 hφ) (c1 : S8.ShapeCasts S1x8)
    (h2 : S1x8.Reduces [1] S1) (hacc2 : (0x00000000#32 : BitVec 32) = FKind.add.neutral .f32 hφ) (c2 : S1.ShapeCasts S1x1)
    (hp : ∀ a, (![0, 0] : Fin 2 → Nat) a < S1x1.size a) :
    extractAt ![0, 0]
        (shapeCast S1x1
          (multiReduction (F := Ideal) .add [1] S1
            (shapeCast S1x8 (multiReduction (F := Ideal) .add [1] S8 v 0x00000000#32 h1 hφ hacc1) c1) 0x00000000#32 h2 hφ hacc2) c2) hp
      = ∑ b : Fin 8, ∑ p : Fin 256, v (ix2 b p) := by
  have e : (fun a => (⟨(![0, 0] : Fin 2 → Nat) a, hp a⟩ : Fin (S1x1.size a))) = ix2 (0 : Fin 1) (0 : Fin 1) := by
    funext a
    match a with
    | ⟨0, _⟩ => rfl
    | ⟨1, _⟩ => rfl
  unfold extractAt
  rw [e]
  refine (shapeCast_a_1a_apply _ c2 0 0).trans ?_
  refine (sumBatches_apply _ h2 hφ hacc2 0).trans ?_
  refine Finset.sum_congr rfl fun b _ => ?_
  refine (shapeCast_a_1a_apply _ c1 0 b).trans ?_
  exact sumBodies_apply v h1 hφ hacc1 b

/-! ## The guarded distance -/

/-- The word of `1.0` denotes one. -/
private theorem one_f32 : Ideal.ofBits .f32 0x3F800000#32 = 1 :=
  Idealize.ShloMosaic.IdealRules.sign_bit.ideal_onePat .f32

/-- The body's guarded root of a vector `v` against a zero vector `z`: the root of `v` with `1` put where
    `v` equals `z`, times the indicator of `v > 0` converted from its bit; at each entry it is `dist` of the entry. -/
private theorem guardedRoot_apply {s : Shape} (v z : FVec Ideal s .f32) (hz : ∀ i, z i = 0) (h132 : 1 < 32) (i : s.Idx) :
    mulf (sqrt (select (cmpf .oeq v z) (broadcast s (Scalar.ofBits (F := Ideal) .f32 0x3F800000#32)) v))
        (sitofp .f32 (extui 32 (cmpf .ogt v (broadcast s (Scalar.ofBits (F := Ideal) .f32 0x00000000#32))) h132)) i
      = Cert.Spec.dist (v i) := by
  show Ideal.sqrt (Scalar.select (Ideal.cmp .oeq (v i) (z i)) (Ideal.ofBits .f32 0x3F800000#32) (v i))
      * ((((Ideal.cmp .ogt (v i) (Ideal.ofBits .f32 0x00000000#32)).setWidth 32).toInt : ℝ) : EReal) = _
  rw [hz i, Ideal.ofBits_zero_f32, one_f32]
  unfold Cert.Spec.dist Ideal.cmp Scalar.select
  by_cases h0 : v i = 0
  · simp [h0]
  · by_cases hpos : 0 < v i
    · simp [h0, hpos]
    · simp [h0, hpos]

/-! ## The squared distance at coordinates -/

/-- The body's squared-distance vector over the two blocks' planes, at `(b, p, q)`: the squared distance of body `p` of the
    first block and body `q` of the second. -/
private theorem sqVec_apply (x0 x1 : Vec Ideal S3x8x256 .f32) (b : Fin 8) (p q : Fin 256) :
    k0_pay7 (F := Ideal) (comp x0 0) (comp x0 1) (comp x0 2) (comp x1 0) (comp x1 1) (comp x1 2) (ix3 b p q)
      = blkSq x0 x1 b p q := by
  unfold k0_pay7 k0_pay6 blkSq
  simp only [addf_apply, mulf_apply, subf_apply, spreadRow_apply, spreadCol_apply, plane_apply]

theorem tileTerm_ideal (x0 x1 : Vec Ideal S3x8x256 .f32) (x2 x3 : Vec Ideal S8x256 .f32) :
    tileTerm (F := Ideal) x0 x1 x2 x3
      = ∑ b : Fin 8, ∑ p : Fin 256, ∑ q : Fin 256, ((x2 (ix2 b p) + x3 (ix2 b q)) - Cert.Spec.dist (blkSq x0 x1 b p q)) := by
  unfold tileTerm k0_pay1
  refine (total_apply _ _ _ _ _ _ _ _ _).trans ?_
  refine Finset.sum_congr rfl fun b _ => Finset.sum_congr rfl fun p _ => ?_
  refine (sumLast_apply _ _ _ _ b p).trans ?_
  refine Finset.sum_congr rfl fun q _ => ?_
  refine congrArg₂ (· - ·) (congrArg₂ (· + ·) (spreadRow_apply x2 _ _ b p q) (spreadCol_apply x3 _ _ b p q)) ?_
  refine (guardedRoot_apply _ _ (fun _ => Ideal.ofBits_zero_f32) _ (ix3 b p q)).trans ?_
  exact congrArg Cert.Spec.dist (sqVec_apply x0 x1 b p q)

theorem gravBlk_ideal (x0 : Vec Ideal S3x8x256 .f32) :
    gravBlk (F := Ideal) x0 = fun _ => ∑ b : Fin 8, ∑ p : Fin 256, x0 (ix3 (1 : Fin 3) b p) := by
  unfold gravBlk k0_pay3 k0_pay6
  funext i
  refine (total_apply _ _ _ _ _ _ _ _ _).trans ?_
  refine Finset.sum_congr rfl fun b _ => Finset.sum_congr rfl fun p _ => ?_
  exact plane_apply x0 1 _ b p

theorem groundBlk_ideal (x0 : Vec Ideal S3x8x256 .f32) (x2 : Vec Ideal S8x256 .f32) :
    groundBlk (F := Ideal) x0 x2 = fun _ => ∑ b : Fin 8, ∑ p : Fin 256, max ((x2 (ix2 b p) - x0 (ix3 (1 : Fin 3) b p)) + 0) 0 := by
  unfold groundBlk k0_pay4 k0_pay6
  funext i
  refine (total_apply _ _ _ _ _ _ _ _ _).trans ?_
  refine Finset.sum_congr rfl fun b _ => Finset.sum_congr rfl fun p _ => ?_
  show max ((x2 (ix2 b p) - _) + Ideal.ofBits .f32 0x00000000#32) (Ideal.ofBits .f32 0x00000000#32) = _
  rw [Ideal.ofBits_zero_f32]
  exact congrArg (fun y => max ((x2 (ix2 b p) - y) + 0) 0) (plane_apply x0 1 _ b p)

end Cert.KernelIdeal.Hand

end
-- ==== Proof.KI.Prefix.lean ====
/-
  The input blocks read off the argument arrays: the host operations before the region stack the three coordinate
  planes of the positions, and block I (or J) of a window is bodies 256·I … 256·I + 255.
-/
import proofs.«159173_j82532091560339_1_alg».proof.Proof.KI.Names
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx

variable {F : FTy → Type} [FloatOps F]

variable (m : (ℓ : Loc nD τ sig) → Buf (Elt F) ℓ)

/-! ## The printed index maps over the grid

Window 0 and window 2 follow the row tile, window 1 and window 3 the column tile; every other block index is 0. -/

private theorem idx_w0 : ∀ t : Fin cfg0.N, win0_0.index t (0 : Fin 3) = 0 ∧ win0_0.index t (1 : Fin 3) = 0
    ∧ win0_0.index t (2 : Fin 3) = t.val / 8 :=
  (by decide +kernel : ∀ t : Fin grid0.N, _)

private theorem idx_w1 : ∀ t : Fin cfg0.N, win0_1.index t (0 : Fin 3) = 0 ∧ win0_1.index t (1 : Fin 3) = 0
    ∧ win0_1.index t (2 : Fin 3) = t.val % 8 :=
  (by decide +kernel : ∀ t : Fin grid0.N, _)

private theorem idx_w2 : ∀ t : Fin cfg0.N, win0_2.index t (0 : Fin 2) = 0 ∧ win0_2.index t (1 : Fin 2) = t.val / 8 :=
  (by decide +kernel : ∀ t : Fin grid0.N, _)

private theorem idx_w3 : ∀ t : Fin cfg0.N, win0_3.index t (0 : Fin 2) = 0 ∧ win0_3.index t (1 : Fin 2) = t.val % 8 :=
  (by decide +kernel : ∀ t : Fin grid0.N, _)

/-! ## A block's element is its array's

On each axis a block's coordinate sits at block index × block extent + the coordinate inside the block. -/

private theorem xb0_read (c : Dev nD) (t : Fin cfg0.N) (d : Fin 3) (b : Fin 8) (p : Fin 256) :
    xb0 m c t (ix3 d b p) = V m c main_v9 (ix3 d b (at256 (rowOf t) p)) := by
  obtain ⟨e0, e1, e2⟩ := idx_w0 t
  show V m c main_v9 (((cfg0.win 0).blk t).view.emb (ix3 d b p)) = V m c main_v9 (ix3 d b (at256 (rowOf t) p))
  refine congrArg _ (funext fun a => Fin.ext ?_)
  match a with
  | ⟨0, _⟩ => show win0_0.index t (0 : Fin 3) * 3 + 1 * d.val = d.val; omega
  | ⟨1, _⟩ => show win0_0.index t (1 : Fin 3) * 8 + 1 * b.val = b.val; omega
  | ⟨2, _⟩ => show win0_0.index t (2 : Fin 3) * 256 + 1 * p.val = 256 * (t.val / 8) + p.val; omega

private theorem xb1_read (c : Dev nD) (t : Fin cfg0.N) (d : Fin 3) (b : Fin 8) (p : Fin 256) :
    xb1 m c t (ix3 d b p) = V m c main_v9 (ix3 d b (at256 (colOf t) p)) := by
  obtain ⟨e0, e1, e2⟩ := idx_w1 t
  show V m c main_v9 (((cfg0.win 1).blk t).view.emb (ix3 d b p)) = V m c main_v9 (ix3 d b (at256 (colOf t) p))
  refine congrArg _ (funext fun a => Fin.ext ?_)
  match a with
  | ⟨0, _⟩ => show win0_1.index t (0 : Fin 3) * 3 + 1 * d.val = d.val; omega
  | ⟨1, _⟩ => show win0_1.index t (1 : Fin 3) * 8 + 1 * b.val = b.val; omega
  | ⟨2, _⟩ => show win0_1.index t (2 : Fin 3) * 256 + 1 * p.val = 256 * (t.val % 8) + p.val; omega

private theorem xb2_read (c : Dev nD) (t : Fin cfg0.N) (b : Fin 8) (p : Fin 256) :
    xb2 m c t (ix2 b p) = V m c main_arg1 (ix2 b (at256 (rowOf t) p)) := by
  obtain ⟨e0, e1⟩ := idx_w2 t
  show V m c main_arg1 (((cfg0.win 2).blk t).view.emb (ix2 b p)) = V m c main_arg1 (ix2 b (at256 (rowOf t) p))
  refine congrArg _ (funext fun a => Fin.ext ?_)
  match a with
  | ⟨0, _⟩ => show win0_2.index t (0 : Fin 2) * 8 + 1 * b.val = b.val; omega
  | ⟨1, _⟩ => show win0_2.index t (1 : Fin 2) * 256 + 1 * p.val = 256 * (t.val / 8) + p.val; omega

private theorem xb3_read (c : Dev nD) (t : Fin cfg0.N) (b : Fin 8) (p : Fin 256) :
    xb3 m c t (ix2 b p) = V m c main_arg1 (ix2 b (at256 (colOf t) p)) := by
  obtain ⟨e0, e1⟩ := idx_w3 t
  show V m c main_arg1 (((cfg0.win 3).blk t).view.emb (ix2 b p)) = V m c main_arg1 (ix2 b (at256 (colOf t) p))
  refine congrArg _ (funext fun a => Fin.ext ?_)
  match a with
  | ⟨0, _⟩ => show win0_3.index t (0 : Fin 2) * 8 + 1 * b.val = b.val; omega
  | ⟨1, _⟩ => show win0_3.index t (1 : Fin 2) * 256 + 1 * p.val = 256 * (t.val % 8) + p.val; omega

/-! ## The arrays as the region finds them

No host operation writes the radii. The positions reach the region as three stacked planes: plane `o` is the
slice of the positions at offset `o` on the last axis, that unit axis dropped and a leading unit axis added, so
its element (0, b, n) is the positions' element (b, n, o). -/

private theorem rad_eq (c : Dev nD) : (V m c main_arg1 : S8x2048.Idx → Elt F .f32) = radOf m c := by
  dsimp only [V]
  after_results

/-- Plane `o` of the positions: the slice at offset `o` on the last axis, reshaped to drop that unit axis, then
    given a leading unit axis. -/
private abbrev plane (o : Nat) (h : S8x2048x3.Slices ![0, 0, o] S8x2048x1) (x : Vec F S8x2048x3 .f32) : Vec F S1x8x2048 .f32 :=
  broadcastInDim S1x8x2048 ![1, 2] bcast_S8x2048_S1x8x2048_1_2
    (shapeCast S8x2048 (extractStridedSlice S8x2048x1 ![0, 0, o] x h) shapeCasts_S8x2048x1_S8x2048)

/-- The three planes in stacking order. -/
private abbrev planes (x : Vec F S8x2048x3 .f32) : List ((s : Shape) × (s.Idx → Elt F .f32)) :=
  [⟨S1x8x2048, plane 0 slices_S8x2048x3_S8x2048x1_0_0_0 x⟩, ⟨S1x8x2048, plane 1 slices_S8x2048x3_S8x2048x1_0_0_1 x⟩,
    ⟨S1x8x2048, plane 2 slices_S8x2048x3_S8x2048x1_0_0_2 x⟩]

private theorem plane_read (o : Nat) (ho : o < 3) (h : S8x2048x3.Slices ![0, 0, o] S8x2048x1) (x : Vec F S8x2048x3 .f32)
    (z : Fin 1) (b : Fin 8) (n : Fin 2048) :
    plane o h x (ix3 z b n) = x (ix3 b n ⟨o, ho⟩) := by
  refine (broadcastInDim_apply _ bcast_S8x2048_S1x8x2048_1_2 _ (ix3 z b n) (ix2 b n) (fun a => match a with
    | ⟨0, _⟩ => by show b.val = if (8 : Nat) = 1 then 0 else b.val; rw [if_neg (by decide)]
    | ⟨1, _⟩ => by show n.val = if (2048 : Nat) = 1 then 0 else n.val; rw [if_neg (by decide)])).trans ?_
  refine (shapeCast_apply _ shapeCasts_S8x2048x1_S8x2048 (ix2 b n) (ix3 b n (0 : Fin 1)) (by
    rewrite [Shape.rowMajor_val_three, Shape.rowMajor_val_two]
    show (b.val * 2048 + n.val) * 1 + 0 = b.val * 2048 + n.val
    omega)).trans ?_
  exact extractStridedSlice_apply ![0, 0, o] x h (ix3 b n (0 : Fin 1)) (ix3 b n ⟨o, ho⟩) (fun a => match a with
    | ⟨0, _⟩ => by show b.val = 0 + b.val; omega
    | ⟨1, _⟩ => by show n.val = 0 + n.val; omega
    | ⟨2, _⟩ => by show o = o + 0; omega)

/-- The stacked array is the concatenation of the three planes along the leading axis. -/
private theorem stacked_eq (c : Dev nD) : (V m c main_v9 : S3x8x2048.Idx → Elt F .f32) =
    concatenate S3x8x2048 0 (planes (posOf m c)) concatenates_S1x8x2048_S1x8x2048_S1x8x2048_S3x8x2048_d0 := by
  dsimp only [V]
  after_results
  rfl

/-- Element (d, b, n) of the stacked array is coordinate `d` of body `n` in batch `b`: the concatenation's piece
    `d` starts at leading coordinate `d`, and that piece is plane `d`. -/
private theorem stacked_apply (c : Dev nD) (d : Fin 3) (b : Fin 8) (n : Fin 2048) :
    V m c main_v9 (ix3 d b n) = posOf m c (ix3 b n d) := by
  refine (congrFun (stacked_eq m c) (ix3 d b n)).trans ?_
  have hi : ∀ (e : Fin 3) (bb : Fin 3) (hr : (3 : Nat) = 3), bb.cast hr ≠ (0 : Fin 3) →
      ((ix3 (0 : Fin 1) b n : S1x8x2048.Idx) bb).val = ((ix3 e b n : S3x8x2048.Idx) (bb.cast hr)).val := fun e bb hr hb =>
    match bb, hb with
    | ⟨0, _⟩, hb => absurd rfl hb
    | ⟨1, _⟩, _ => rfl
    | ⟨2, _⟩, _ => rfl
  match d with
  | ⟨0, _⟩ =>
    exact (concatenate_apply_piece (t := S3x8x2048) (0 : Fin 3) (planes (posOf m c))
      concatenates_S1x8x2048_S1x8x2048_S1x8x2048_S3x8x2048_d0 (ix3 (0 : Fin 3) b n)
      0 (by show (0 : Nat) < 3; omega) S1x8x2048 (plane 0 slices_S8x2048x3_S8x2048x1_0_0_0 (posOf m c)) rfl rfl 0 rfl
      (ix3 (0 : Fin 1) b n) (fun bb hb => hi 0 bb rfl hb) rfl).trans
      (plane_read 0 (by decide) slices_S8x2048x3_S8x2048x1_0_0_0 (posOf m c) 0 b n)
  | ⟨1, _⟩ =>
    exact (concatenate_apply_piece (t := S3x8x2048) (0 : Fin 3) (planes (posOf m c))
      concatenates_S1x8x2048_S1x8x2048_S1x8x2048_S3x8x2048_d0 (ix3 (1 : Fin 3) b n)
      1 (by show (1 : Nat) < 3; omega) S1x8x2048 (plane 1 slices_S8x2048x3_S8x2048x1_0_0_1 (posOf m c)) rfl rfl 1 rfl
      (ix3 (0 : Fin 1) b n) (fun bb hb => hi 1 bb rfl hb) rfl).trans
      (plane_read 1 (by decide) slices_S8x2048x3_S8x2048x1_0_0_1 (posOf m c) 0 b n)
  | ⟨2, _⟩ =>
    exact (concatenate_apply_piece (t := S3x8x2048) (0 : Fin 3) (planes (posOf m c))
      concatenates_S1x8x2048_S1x8x2048_S1x8x2048_S3x8x2048_d0 (ix3 (2 : Fin 3) b n)
      2 (by show (2 : Nat) < 3; omega) S1x8x2048 (plane 2 slices_S8x2048x3_S8x2048x1_0_0_2 (posOf m c)) rfl rfl 2 rfl
      (ix3 (0 : Fin 1) b n) (fun bb hb => hi 2 bb rfl hb) rfl).trans
      (plane_read 2 (by decide) slices_S8x2048x3_S8x2048x1_0_0_2 (posOf m c) 0 b n)

/-! ## The four input blocks at a point, off the argument arrays -/

theorem xb0_apply (c : Dev nD) (t : Fin cfg0.N) (d : Fin 3) (b : Fin 8) (p : Fin 256) :
    xb0 m c t (ix3 d b p) = posOf m c (ix3 b (at256 (rowOf t) p) d) :=
  (xb0_read m c t d b p).trans (stacked_apply m c d b _)

theorem xb1_apply (c : Dev nD) (t : Fin cfg0.N) (d : Fin 3) (b : Fin 8) (p : Fin 256) :
    xb1 m c t (ix3 d b p) = posOf m c (ix3 b (at256 (colOf t) p) d) :=
  (xb1_read m c t d b p).trans (stacked_apply m c d b _)

theorem xb2_apply (c : Dev nD) (t : Fin cfg0.N) (b : Fin 8) (p : Fin 256) :
    xb2 m c t (ix2 b p) = radOf m c (ix2 b (at256 (rowOf t) p)) :=
  (xb2_read m c t b p).trans (congrFun (rad_eq m c) _)

theorem xb3_apply (c : Dev nD) (t : Fin cfg0.N) (b : Fin 8) (p : Fin 256) :
    xb3 m c t (ix2 b p) = radOf m c (ix2 b (at256 (colOf t) p)) :=
  (xb3_read m c t b p).trans (congrFun (rad_eq m c) _)

end Cert.KernelIdeal.Hand

end
-- ==== Proof.KI.Sums.lean ====
/-
  The kernel's three sums are the loss's three sums.

  Row I of the collision array holds Σ_J (the pairwise sum of tile (I, J)); the tile's pairwise sum is the triple
  sum over the batch and the two tiles' bodies; and bodies 256·I + p, I < 8, p < 256, are the 2048 bodies once each:
  so the sum of the rows is the sum over all pairs. Likewise the gravity and ground arrays by rows. Only the
  commutative-monoid laws of addition on the extended reals are used: no finiteness is needed.
-/
import proofs.«159173_j82532091560339_1_alg».proof.Proof.KI.Blocks
import proofs.«159173_j82532091560339_1_alg».proof.Proof.KI.Tile
import proofs.«159173_j82532091560339_1_alg».proof.Proof.KI.Prefix
import proofs.«159173_j82532091560339_1_alg».proof.Proof.KI.Final
import proofs.«159173_j82532091560339_1_alg».proof.Proof.Spec
import Mathlib.Logic.Equiv.Fin.Basic
import Mathlib.Data.Fintype.BigOperators
import Mathlib.Algebra.BigOperators.Group.Finset.Sigma
import Mathlib.Algebra.BigOperators.Fin

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.ValueIdx
open scoped BigOperators

variable (m : (ℓ : Loc nD τ sig) → Buf (Elt Ideal) ℓ)

/-! ## Regrouping the bodies by tiles -/

/-- Bodies 256·I + p, I < 8, p < 256, are the 2048 bodies once each. -/
private theorem sum_at256 {M : Type} [AddCommMonoid M] (g : Fin 2048 → M) :
    ∑ n : Fin 2048, g n = ∑ I : Fin 8, ∑ p : Fin 256, g (at256 I p) := by
  refine Eq.trans ?_ (Fintype.sum_prod_type' (fun (I : Fin 8) (p : Fin 256) => g (at256 I p)))
  refine (Fintype.sum_equiv (finProdFinEquiv : Fin 8 × Fin 256 ≃ Fin 2048) (fun x => g (at256 x.1 x.2)) g ?_).symm
  intro x
  refine congrArg g (Fin.ext ?_)
  show 256 * x.1.val + x.2.val = x.2.val + 256 * x.1.val
  omega

/-- A sum over the row tiles of a batch-by-tile-body sum is the sum over the batch and all bodies. -/
private theorem sum_rows {M : Type} [AddCommMonoid M] (f : Fin 8 → Fin 2048 → M) :
    ∑ I : Fin 8, ∑ b : Fin 8, ∑ p : Fin 256, f b (at256 I p) = ∑ b : Fin 8, ∑ n : Fin 2048, f b n := by
  rw [Finset.sum_comm]
  refine Finset.sum_congr rfl (fun b _ => ?_)
  exact (sum_at256 (fun n => f b n)).symm

/-- A sum over the tile pairs of a batch-by-two-tile-bodies sum is the sum over the batch and all pairs of bodies. -/
private theorem sum_pairs {M : Type} [AddCommMonoid M] (f : Fin 8 → Fin 2048 → Fin 2048 → M) :
    ∑ I : Fin 8, ∑ J : Fin 8, ∑ b : Fin 8, ∑ p : Fin 256, ∑ q : Fin 256, f b (at256 I p) (at256 J q)
      = ∑ b : Fin 8, ∑ i : Fin 2048, ∑ j : Fin 2048, f b i j := by
  symm
  calc ∑ b : Fin 8, ∑ i : Fin 2048, ∑ j : Fin 2048, f b i j
      = ∑ b : Fin 8, ∑ I : Fin 8, ∑ p : Fin 256, ∑ J : Fin 8, ∑ q : Fin 256, f b (at256 I p) (at256 J q) := by
        refine Finset.sum_congr rfl (fun b _ => ?_)
        refine (sum_at256 (fun i => ∑ j : Fin 2048, f b i j)).trans ?_
        refine Finset.sum_congr rfl (fun I _ => Finset.sum_congr rfl (fun p _ => ?_))
        exact sum_at256 (fun j => f b (at256 I p) j)
    _ = ∑ I : Fin 8, ∑ b : Fin 8, ∑ J : Fin 8, ∑ p : Fin 256, ∑ q : Fin 256, f b (at256 I p) (at256 J q) := by
        rw [Finset.sum_comm]
        refine Finset.sum_congr rfl (fun I _ => Finset.sum_congr rfl (fun b _ => ?_))
        rw [Finset.sum_comm]
    _ = ∑ I : Fin 8, ∑ J : Fin 8, ∑ b : Fin 8, ∑ p : Fin 256, ∑ q : Fin 256, f b (at256 I p) (at256 J q) := by
        refine Finset.sum_congr rfl (fun I _ => ?_)
        rw [Finset.sum_comm]

/-! ## A point's row and column tile -/

private theorem rowOf_pt (I J : Fin 8) : rowOf (pt I J) = I :=
  Fin.ext (by show (8 * I.val + J.val) / 8 = I.val; have := J.isLt; omega)

private theorem colOf_pt (I J : Fin 8) : colOf (pt I J) = J :=
  Fin.ext (by show (8 * I.val + J.val) % 8 = J.val; have := J.isLt; omega)

/-! ## Along a row of points -/

private theorem outsAt_congr (c : Dev nD) {n n' : ℕ} (e : n = n') (h : n < cfg0.N) (h' : n' < cfg0.N) :
    outsAt m c n h = outsAt m c n' h' := by
  subst e; rfl

/-- The point before point (I, j + 1) is point (I, j). -/
private theorem outsAt_pred (c : Dev nD) (I : Fin 8) (j : ℕ) (hj : j + 1 < 8) (hj' : j < 8) :
    outsAt m c ((pt I ⟨j + 1, hj⟩).val - 1) (Nat.lt_of_le_of_lt (Nat.sub_le _ _) (pt I ⟨j + 1, hj⟩).isLt)
      = outsAt m c (pt I ⟨j, hj'⟩).val (pt I ⟨j, hj'⟩).isLt :=
  outsAt_congr m c (by show 8 * I.val + (j + 1) - 1 = 8 * I.val + j; omega) _ _

/-- Along row I the gravity and ground blocks stay what the row's first point writes. -/
private theorem row_23 (c : Dev nD) (I : Fin 8) (j : ℕ) (hj : j < 8) :
    (outsAt m c (pt I ⟨j, hj⟩).val (pt I ⟨j, hj⟩).isLt).2
      = (gravBlk (xb0 m c (pt I 0)), groundBlk (xb0 m c (pt I 0)) (xb2 m c (pt I 0))) := by
  induction j with
  | zero =>
    have h0 : (pt I ⟨0, hj⟩).val % 8 = 0 := by show (8 * I.val + 0) % 8 = 0; omega
    rw [outsAt_A m c _ h0]
    exact Prod.ext (outA_2 ..) (outA_3 ..)
  | succ j ih =>
    have hj' : j < 8 := by omega
    have h1 : ¬ (pt I ⟨j + 1, hj⟩).val % 8 = 0 := by show ¬ (8 * I.val + (j + 1)) % 8 = 0; omega
    rw [outsAt_B m c _ h1, outsAt_pred m c I j hj hj']
    exact ih hj'

/-- Along row I the collision block after point (I, j) holds the sum of the pairwise sums of tiles (I, 0) … (I, j). -/
private theorem row_1 (c : Dev nD) (I : Fin 8) (j : ℕ) (hj : j < 8) (i : S1x1x128.Idx) :
    (outsAt m c (pt I ⟨j, hj⟩).val (pt I ⟨j, hj⟩).isLt).1 i
      = ∑ J' : Fin (j + 1), tileAt m c (pt I (Fin.castLE (by omega) J')) := by
  induction j with
  | zero =>
    have h0 : (pt I ⟨0, hj⟩).val % 8 = 0 := by show (8 * I.val + 0) % 8 = 0; omega
    rw [outsAt_A m c _ h0, outA_1, broadcast_apply, Fin.sum_univ_castSucc, Fin.sum_univ_zero, zero_add]
    rfl
  | succ j ih =>
    have hj' : j < 8 := by omega
    have h1 : ¬ (pt I ⟨j + 1, hj⟩).val % 8 = 0 := by show ¬ (8 * I.val + (j + 1)) % 8 = 0; omega
    rw [outsAt_B m c _ h1, outsAt_pred m c I j hj hj']
    dsimp only
    rw [outB_eq, addf_apply, shapeCast_self, broadcast_apply, Fin.sum_univ_castSucc]
    exact congrArg₂ (· + ·) (ih hj') rfl

/-! ## The block quantities of a tile, by bodies -/

/-- The squared distance inside tile (I, J) is the squared distance of the two bodies. -/
private theorem blkSq_pt (c : Dev nD) (I J : Fin 8) (b : Fin 8) (p q : Fin 256) :
    blkSq (xb0 m c (pt I J)) (xb1 m c (pt I J)) b p q = Cert.Spec.sq (posOf m c) b (at256 I p) (at256 J q) := by
  unfold blkSq Cert.Spec.sq Cert.Spec.px
  rw [xb0_apply, xb0_apply, xb0_apply, xb1_apply, xb1_apply, xb1_apply, rowOf_pt, colOf_pt]

/-- The pairwise sum of tile (I, J) is the sum of the contributions of the pairs (body of tile I, body of tile J). -/
private theorem tileAt_pt (c : Dev nD) (I J : Fin 8) :
    tileAt m c (pt I J) = ∑ b : Fin 8, ∑ p : Fin 256, ∑ q : Fin 256,
      Cert.Spec.term (posOf m c) (radOf m c) b (at256 I p) (at256 J q) := by
  unfold tileAt
  rw [tileTerm_ideal]
  refine Finset.sum_congr rfl (fun b _ => Finset.sum_congr rfl (fun p _ => Finset.sum_congr rfl (fun q _ => ?_)))
  rw [blkSq_pt, xb2_apply, xb3_apply, rowOf_pt, colOf_pt]
  rfl

/-- The height sum of row tile I, on every lane. -/
private theorem grav_pt (c : Dev nD) (I : Fin 8) (i : S1x1x128.Idx) :
    gravBlk (xb0 m c (pt I 0)) i = ∑ b : Fin 8, ∑ p : Fin 256, Cert.Spec.px (posOf m c) b (at256 I p) 1 := by
  rw [gravBlk_ideal]
  refine Finset.sum_congr rfl (fun b _ => Finset.sum_congr rfl (fun p _ => ?_))
  rw [xb0_apply, rowOf_pt]
  rfl

/-- The ground sum of row tile I, on every lane. -/
private theorem ground_pt (c : Dev nD) (I : Fin 8) (i : S1x1x128.Idx) :
    groundBlk (xb0 m c (pt I 0)) (xb2 m c (pt I 0)) i
      = ∑ b : Fin 8, ∑ p : Fin 256,
          max ((radOf m c (ix2 b (at256 I p)) - Cert.Spec.px (posOf m c) b (at256 I p) 1) + 0) 0 := by
  rw [groundBlk_ideal]
  refine Finset.sum_congr rfl (fun b _ => Finset.sum_congr rfl (fun p _ => ?_))
  rw [xb0_apply, xb2_apply, rowOf_pt]
  rfl

/-! ## The three closing sums -/

/-- The collision array's closing sum is the sum over all pairs. -/
private theorem coll_eq (c : Dev nD) :
    rowSum (F := Ideal) (arr4 m c) = fun _ => Cert.Spec.collSum (posOf m c) (radOf m c) := by
  rw [rowSum_ideal]
  funext _
  unfold Cert.Spec.collSum
  rw [← sum_pairs (fun b i j => Cert.Spec.term (posOf m c) (radOf m c) b i j)]
  refine Finset.sum_congr rfl (fun I _ => ?_)
  rw [arr4_apply]
  refine (row_1 m c I 7 (by norm_num) _).trans ?_
  exact Finset.sum_congr rfl (fun J _ => tileAt_pt m c I J)

/-- The gravity array's closing sum is the height sum. -/
private theorem grav_eq (c : Dev nD) :
    rowSum (F := Ideal) (arr5 m c) = fun _ => Cert.Spec.gravSum (posOf m c) := by
  rw [rowSum_ideal]
  funext _
  unfold Cert.Spec.gravSum
  rw [← sum_rows (fun b n => Cert.Spec.px (posOf m c) b n 1)]
  refine Finset.sum_congr rfl (fun I _ => ?_)
  rw [arr5_apply]
  have h := row_23 m c I 7 (by norm_num)
  exact (congrFun (congrArg Prod.fst h) _).trans (grav_pt m c I (ix3 (0 : Fin 1) (0 : Fin 1) (0 : Fin 128)))

/-- The ground array's closing sum is the ground sum. -/
private theorem ground_eq (c : Dev nD) :
    rowSum (F := Ideal) (arr6 m c) = fun _ => Cert.Spec.groundSum (posOf m c) (radOf m c) := by
  rw [rowSum_ideal]
  funext _
  unfold Cert.Spec.groundSum
  rw [← sum_rows (fun b n => max ((radOf m c (ix2 b n) - Cert.Spec.px (posOf m c) b n 1) + 0) 0)]
  refine Finset.sum_congr rfl (fun I _ => ?_)
  rw [arr6_apply]
  have h := row_23 m c I 7 (by norm_num)
  exact (congrFun (congrArg Prod.snd h) _).trans (ground_pt m c I (ix3 (0 : Fin 1) (0 : Fin 1) (0 : Fin 128)))

/-- The closing host arithmetic applied to the three result arrays' row sums is the loss of the argument arrays. -/
theorem kernel_value (c : Dev nD) :
    Cert.Spec.tailV (rowSum (F := Ideal) (arr5 m c)) (rowSum (F := Ideal) (arr6 m c)) (rowSum (F := Ideal) (arr4 m c))
      = Cert.Spec.loss (posOf m c) (radOf m c) := by
  rw [coll_eq, grav_eq, ground_eq]
  rfl

end Cert.KernelIdeal.Hand

end
-- ==== Proof.Ref.lean ====
/-
  The reference's result is the loss of the two argument arrays.

  The reference computes three total sums and then the closing arithmetic. The closing arithmetic is, operation by
  operation, `Cert.Spec.tailV` of the three sums. Each total sum over an index set is re-indexed by coordinates into
  the iterated sum of the specification, and each summand, read at an index through the layout operations, is the
  specification's summand: a height p[b, n, 1]; a ground term max ((r[b, n] − p[b, n, 1]) + 0) 0; a pair term
  (r[b, i] + r[b, j]) − dist s[b, i, j], where the compare / select / root / convert chain is the guarded distance.
-/
import proofs.«159173_j82532091560339_1_alg».proof.Proof.Gen.ReferenceIdeal.Run
import proofs.«159173_j82532091560339_1_alg».proof.Proof.Gen.ReferenceIdeal.Read
import proofs.«159173_j82532091560339_1_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen
open Cert.ReferenceIdeal.Read

/-! ## Words and index sets -/

/-- The f32 word of `1.0` denotes the extended real `1`. -/
private theorem ofBits_one_f32 : Ideal.ofBits .f32 0x3F800000#32 = 1 := by
  simp [Ideal.ofBits, Ideal.ieee, -EReal.coe_mul]; norm_num

/-- A one-bit word converted to a float is `1` where the bit is set and `0` where it is not. -/
private theorem uitofp_ofBool (c : Bool) :
    (FloatOps.uitofp (F := Ideal) .f32 (BitVec.ofBool c) : EReal) = if c then 1 else 0 := by
  cases c
  · show (((0#1 : BitVec 1).toNat : ℝ) : EReal) = 0
    simp
  · show (((1#1 : BitVec 1).toNat : ℝ) : EReal) = 1
    simp

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The closing arithmetic -/

/-- The last stages are the closing arithmetic of the three sums. -/
private theorem tail_eq (pos : (⟨S8x2048x3, .f32⟩ : BufTy).Contents (Elt Ideal)) (rad : (⟨S8x2048, .f32⟩ : BufTy).Contents (Elt Ideal)) :
    val_main_v40 (F := Ideal) pos rad
      = Cert.Spec.tailV (val_main_v2 (F := Ideal) pos) (val_main_v10 (F := Ideal) pos rad) (val_main_v33 (F := Ideal) pos rad) := by
  rfl

/-! ## The height sum -/

/-- The sliced and reshaped plane at (b, n) is the height p[b, n, 1]. -/
private theorem height_elt (pos : (⟨S8x2048x3, .f32⟩ : BufTy).Contents (Elt Ideal)) (b : Fin 8) (n : Fin 2048) :
    val_main_v1 (F := Ideal) pos (ix2 b n) = Cert.Spec.px pos b n 1 := by
  rw [val_main_v1_apply, val_main_v0_apply]
  show pos _ = pos (ix3 b n 1)
  refine congrArg pos (funext fun a => Fin.ext ?_)
  have hb := b.isLt
  have hn := n.isLt
  match a with
  | ⟨0, _⟩ => show (b.val * 2048 + n.val) / 2048 = b.val; omega
  | ⟨1, _⟩ => show (b.val * 2048 + n.val) / 1 % 2048 = n.val; omega
  | ⟨2, _⟩ => rfl

/-- The same plane as the ground term's operand slices it again. -/
private theorem height_elt' (pos : (⟨S8x2048x3, .f32⟩ : BufTy).Contents (Elt Ideal)) (b : Fin 8) (n : Fin 2048) :
    val_main_v5 (F := Ideal) pos (ix2 b n) = Cert.Spec.px pos b n 1 := by
  rw [val_main_v5_apply, val_main_v4_apply]
  show pos _ = pos (ix3 b n 1)
  refine congrArg pos (funext fun a => Fin.ext ?_)
  have hb := b.isLt
  have hn := n.isLt
  match a with
  | ⟨0, _⟩ => show (b.val * 2048 + n.val) / 2048 = b.val; omega
  | ⟨1, _⟩ => show (b.val * 2048 + n.val) / 1 % 2048 = n.val; omega
  | ⟨2, _⟩ => rfl

/-- The height sum: the total sum over (b, n), by coordinates. -/
private theorem v2_eq (pos : (⟨S8x2048x3, .f32⟩ : BufTy).Contents (Elt Ideal)) :
    val_main_v2 (F := Ideal) pos = fun _ => Cert.Spec.gravSum pos := by
  funext i
  rw [val_main_v2_apply, val_main_cst_apply, Ideal.ofBits_def, Ideal.ofBits_zero_f32, zero_add, sum_idx2]
  exact Finset.sum_congr rfl fun b _ => Finset.sum_congr rfl fun n _ => height_elt pos b n

/-! ## The ground sum -/

/-- The ground term at (b, n): the broadcast zero words read as 0. -/
private theorem ground_elt (pos : (⟨S8x2048x3, .f32⟩ : BufTy).Contents (Elt Ideal)) (rad : (⟨S8x2048, .f32⟩ : BufTy).Contents (Elt Ideal))
    (b : Fin 8) (n : Fin 2048) :
    val_main_v9 (F := Ideal) pos rad (ix2 b n) = max ((rad (ix2 b n) - Cert.Spec.px pos b n 1) + 0) 0 := by
  rw [val_main_v9_apply, val_main_v8_apply, val_main_v6_apply, val_main_v7_apply, val_main_cst_1_apply,
    val_main_call0_v0_apply, val_main_call0_cst_apply, height_elt']
  simp only [Ideal.maximumf_def, Ideal.addf_def, Ideal.subf_def, Ideal.ofBits_def, Ideal.ofBits_zero_f32]

/-- The ground sum. -/
private theorem v10_eq (pos : (⟨S8x2048x3, .f32⟩ : BufTy).Contents (Elt Ideal)) (rad : (⟨S8x2048, .f32⟩ : BufTy).Contents (Elt Ideal)) :
    val_main_v10 (F := Ideal) pos rad = fun _ => Cert.Spec.groundSum pos rad := by
  funext i
  rw [val_main_v10_apply, val_main_cst_2_apply, Ideal.ofBits_def, Ideal.ofBits_zero_f32, zero_add, sum_idx2]
  exact Finset.sum_congr rfl fun b _ => Finset.sum_congr rfl fun n _ => ground_elt pos rad b n

/-! ## The pairwise sum -/

/-- The sum over the three coordinates of the squared differences at (b, i, j) is the squared distance. -/
private theorem sq_elt (pos : (⟨S8x2048x3, .f32⟩ : BufTy).Contents (Elt Ideal)) (b : Fin 8) (i j : Fin 2048) :
    val_main_v23 (F := Ideal) pos (ix3 b i j) = Cert.Spec.sq pos b i j := by
  have h : ∀ k : Fin 3, val_main_v22 (F := Ideal) pos (idx_main_v23 (ix3 b i j) k)
      = (Cert.Spec.px pos b i k - Cert.Spec.px pos b j k) * (Cert.Spec.px pos b i k - Cert.Spec.px pos b j k) := by
    intro k
    rw [val_main_v22_apply, val_main_v16_apply, val_main_v14_apply, val_main_v15_apply, val_main_v12_apply, val_main_v13_apply]
    have h1 : idx_main_v12 (idx_main_v14 (idx_main_v23 (ix3 b i j) k)) = ix3 b i k :=
      funext fun a => Fin.ext (by match a with | ⟨0, _⟩ => rfl | ⟨1, _⟩ => rfl | ⟨2, _⟩ => rfl)
    have h2 : idx_main_v13 (idx_main_v15 (idx_main_v23 (ix3 b i j) k)) = ix3 b j k :=
      funext fun a => Fin.ext (by match a with | ⟨0, _⟩ => rfl | ⟨1, _⟩ => rfl | ⟨2, _⟩ => rfl)
    rw [h1, h2]
    rfl
  rw [val_main_v23_apply, val_main_cst_4_apply, Ideal.ofBits_def, Ideal.ofBits_zero_f32, zero_add, Fin.sum_univ_three,
    h 0, h 1, h 2]
  rfl

/-- The compare / select / root / convert chain at (b, i, j) is the guarded distance of the squared distance. -/
private theorem dist_elt (pos : (⟨S8x2048x3, .f32⟩ : BufTy).Contents (Elt Ideal)) (b : Fin 8) (i j : Fin 2048) :
    val_main_v31 (F := Ideal) pos (ix3 b i j) = Cert.Spec.dist (Cert.Spec.sq pos b i j) := by
  rw [val_main_v31_apply, val_main_v27_apply, val_main_v26_apply, val_main_v25_apply, val_main_v30_apply, val_main_v29_apply,
    val_main_v24_apply, val_main_v28_apply, val_main_cst_5_apply, val_main_cst_7_apply, val_main_call1_v1_apply,
    val_main_call1_v0_apply, val_main_cst_6_apply, sq_elt]
  generalize Cert.Spec.sq pos b i j = s
  simp only [Ideal.ofBits_def, Ideal.ofBits_zero_f32, ofBits_one_f32, Ideal.hostUnary_sqrt_def, Ideal.mulf_def, Ideal.cmpf_def,
    Ideal.cmp, uitofp_ofBool]
  unfold Cert.Spec.dist
  have hsel : Scalar.select (BitVec.ofBool (decide (s = 0))) (1 : EReal) s = if s = 0 then 1 else s := by
    by_cases h : s = 0
    · rw [if_pos h, decide_eq_true h]; exact select_one _ _
    · rw [if_neg h, decide_eq_false h]; exact select_zero _ _
  rw [hsel]
  simp only [decide_eq_true_eq]

/-- One pair's contribution at (b, i, j): the two broadcast radii and the guarded distance. -/
private theorem term_elt (pos : (⟨S8x2048x3, .f32⟩ : BufTy).Contents (Elt Ideal)) (rad : (⟨S8x2048, .f32⟩ : BufTy).Contents (Elt Ideal))
    (b : Fin 8) (i j : Fin 2048) :
    val_main_v32 (F := Ideal) pos rad (ix3 b i j) = Cert.Spec.term pos rad b i j := by
  rw [val_main_v32_apply, val_main_v21_apply, val_main_v19_apply, val_main_v20_apply, val_main_v17_apply, val_main_v18_apply, dist_elt]
  have h1 : idx_main_v17 (idx_main_v19 (ix3 b i j)) = ix2 b i :=
    funext fun a => Fin.ext (by match a with | ⟨0, _⟩ => rfl | ⟨1, _⟩ => rfl)
  have h2 : idx_main_v18 (idx_main_v20 (ix3 b i j)) = ix2 b j :=
    funext fun a => Fin.ext (by match a with | ⟨0, _⟩ => rfl | ⟨1, _⟩ => rfl)
  rw [h1, h2]
  rfl

/-- The pairwise sum: the total sum over (b, i, j), by coordinates. -/
private theorem v33_eq (pos : (⟨S8x2048x3, .f32⟩ : BufTy).Contents (Elt Ideal)) (rad : (⟨S8x2048, .f32⟩ : BufTy).Contents (Elt Ideal)) :
    val_main_v33 (F := Ideal) pos rad = fun _ => Cert.Spec.collSum pos rad := by
  funext i
  rw [val_main_v33_apply, val_main_cst_8_apply, Ideal.ofBits_def, Ideal.ofBits_zero_f32, zero_add, sum_idx3]
  exact Finset.sum_congr rfl fun b _ => Finset.sum_congr rfl fun i _ => Finset.sum_congr rfl fun j _ => term_elt pos rad b i j

/-- The reference's composed term, at the extended reals, is the loss of the argument arrays. -/
theorem ref_value (pos : (⟨S8x2048x3, .f32⟩ : BufTy).Contents (Elt Ideal)) (rad : (⟨S8x2048, .f32⟩ : BufTy).Contents (Elt Ideal)) :
    Cert.ReferenceIdeal.Read.val_main_v40 (F := Ideal) pos rad = Cert.Spec.loss pos rad := by
  rw [tail_eq, v2_eq, v10_eq, v33_eq]
  rfl

end Cert.ReferenceIdeal.RefValue

end
-- ==== Proof.lean ====
/-
  Kernel and reference compute the same loss of positions p[b, n, ·] and radii r[b, n] over the extended reals.

  The kernel tiles the 2048 × 2048 pairs of each of the 8 batches into 8 × 8 tiles of 256 × 256 pairs. A grid point
  (I, J) sums (r_i + r_j) − dist(|p_i − p_j|²) over the tile's pairs and the batches; the first point of row I stores
  that sum, every later point of the row adds its own, and the row's last point writes the total back: row I of the
  collision array is Σ_J of the tiles' sums. The first point of a row also stores the row tile's height sum and its
  clamped (radius − height) sum. The host then adds the eight rows of each array, divides by the counts, applies
  the softplus to the pairwise mean and forms the weighted sum. The reference forms the three sums over all bodies
  and all pairs at once and closes with the same arithmetic.

  Both sides are therefore the same closing arithmetic of three sums, and the sums agree because addition on the
  extended reals is commutative and associative: the sum over tiles of the sums inside a tile is the sum over all
  pairs (bodies 256·I + p, I < 8, p < 256, are the 2048 bodies once each), the squared distance (Δx² + Δy²) + Δz² is
  0 + Δx² + Δy² + Δz², and a running sum started at a tile's value is the sum started at zero. No distributivity and
  no cancellation is used, so the finiteness of the inputs is never opened.

  The frames: the stacked coordinate planes are handed to the kernel through two windows (row tile and column tile),
  and so are the radii; each of the two windows holds half of its array while the kernel runs and the halves are
  joined at its end, where the inputs are as they were. The argument arrays are written by no host operation.
-/
import proofs.«159173_j82532091560339_1_alg».proof.Defs
import proofs.«159173_j82532091560339_1_alg».proof.Proof.K.Ends
import proofs.«159173_j82532091560339_1_alg».proof.Proof.KI.EndsV
import proofs.«159173_j82532091560339_1_alg».proof.Proof.KI.Sums
import proofs.«159173_j82532091560339_1_alg».proof.Proof.Ref
import proofs.«159173_j82532091560339_1_alg».proof.Proof.Gen.ReferenceIdeal.Run
import proofs.«159173_j82532091560339_1_alg».proof.Proof.Gen.ReferenceIdeal.Read
import proofs.«159173_j82532091560339_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : @Cert.frame_Kernel Cert.Kernel.Gen.facts Cert.Pre_finite_inputs.Gen.facts := fun m ρ _ =>
  (θ_run Cert.Kernel.defs _ _).mono
    (fun _ h c => ⟨(h c _ Cert.Kernel.Hand.mem_UC_arg0).trans (Cert.Kernel.Hand.Vfin_arg0 m c),
      (h c _ Cert.Kernel.Hand.mem_UC_arg1).trans (Cert.Kernel.Hand.Vfin_arg1 m c)⟩)
    (Cert.Kernel.Hand.run_main (F := Bits) m ρ)

/-- So does the idealized kernel. -/
theorem frame_ki : @Cert.frame_KernelIdeal Cert.KernelIdeal.Gen.facts Cert.Pre_finite_inputs.Gen.facts := fun m ρ _ =>
  (θ_run Cert.KernelIdeal.defs _ _).mono
    (fun _ h c => ⟨(h c _ Cert.KernelIdeal.Hand.mem_UC_arg0).trans (Cert.KernelIdeal.Hand.Vfin_arg0 m c),
      (h c _ Cert.KernelIdeal.Hand.mem_UC_arg1).trans (Cert.KernelIdeal.Hand.Vfin_arg1 m c)⟩)
    (Cert.KernelIdeal.Hand.run_main (F := Ideal) m ρ)

/-- The reference is host operations only: its run, the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both programs end at the loss of the (agreeing) argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.loss (Cert.KernelIdeal.Hand.posOf m c) (Cert.KernelIdeal.Hand.radOf m c), ?_, ?_⟩
  · exact (θ_run Cert.KernelIdeal.defs _ _).mono
      (fun _ h c => ⟨(h c _ Cert.KernelIdeal.Hand.mem_UC_v28).trans
          ((Cert.KernelIdeal.Hand.Vfin_v28 m c).trans (Cert.KernelIdeal.Hand.kernel_value m c)),
        (h c _ Cert.KernelIdeal.Hand.mem_UC_arg0).trans (Cert.KernelIdeal.Hand.Vfin_arg0 m c),
        (h c _ Cert.KernelIdeal.Hand.mem_UC_arg1).trans (Cert.KernelIdeal.Hand.Vfin_arg1 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, Cert.ReferenceIdeal.RefValue.ref_value, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
